-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x256 : Shape := ⟨2, ![512, 256]⟩
abbrev S256 : Shape := ⟨1, ![256]⟩
abbrev S16384 : Shape := ⟨1, ![16384]⟩
abbrev S163840 : Shape := ⟨1, ![163840]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S512x256 .f32) (main_arg8 : FVec F S256 .f32) (main_arg9 : FVec F S256 .f32) (main_arg10 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256 .f32) (main_arg6 : FVec F S256 .f32) (main_arg7 : FVec F S512x256 .f32) (main_arg8 : FVec F S256 .f32) (main_arg9 : FVec F S256 .f32) (main_arg10 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x256 .f32) (main_arg1 : FVec F S100000x256 .f32) (main_arg2 : FVec F S100000x256 .f32) (main_arg3 : FVec F S512x256 .f32) (main_arg4 : FVec F S256 .f32) (main_arg5 : FVec F S256 .f32) (main_arg6 : FVec F S256 .f32) (main_arg7 : FVec F S512x256 .f32) (main_arg8 : FVec F S256 .f32) (main_arg9 : FVec F S256 .f32) (main_arg10 : FVec F S256 .f32) (main_arg11 : IVec S16384 32) (main_arg12 : IVec S163840 32) (main_arg13 : IVec S163840 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_v13 main_v16
-- ==== Kernel.lean ====
abbrev S100000x256 : Shape := ⟨2, ![100000, 256]⟩
abbrev S512x256 : Shape := ⟨2, ![512, 256]⟩
abbrev S256 : Shape := ⟨1, ![256]⟩
abbrev S16384 : Shape := ⟨1, ![16384]⟩
abbrev S163840 : Shape := ⟨1, ![163840]⟩
abbrev S16384x10 : Shape := ⟨2, ![16384, 10]⟩
abbrev S10x16384 : Shape := ⟨2, ![10, 16384]⟩
abbrev S_ : Shape := ⟨0, ![]⟩
abbrev S163840x1 : Shape := ⟨2, ![163840, 1]⟩
abbrev S163840x256 : Shape := ⟨2, ![163840, 256]⟩
abbrev S10x16384x256 : Shape := ⟨3, ![10, 16384, 256]⟩
abbrev S16384x1 : Shape := ⟨2, ![16384, 1]⟩
abbrev S16384x256 : Shape := ⟨2, ![16384, 256]⟩
abbrev S256x256 : Shape := ⟨2, ![256, 256]⟩
abbrev S1x256 : Shape := ⟨2, ![1, 256]⟩
abbrev S10x512x256 : Shape := ⟨3, ![10, 512, 256]⟩
abbrev S512 : Shape := ⟨1, ![512]⟩
abbrev S512x1 : Shape := ⟨2, ![512, 1]⟩

abbrev nBuf : Space → Nat
  | .hbm => 55
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S512x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S16384, .i32⟩
  | .hbm, ⟨12, _⟩ => ⟨S163840, .i32⟩
  | .hbm, ⟨13, _⟩ => ⟨S163840, .i32⟩
  | .hbm, ⟨14, _⟩ => ⟨S16384x10, .i32⟩
  | .hbm, ⟨15, _⟩ => ⟨S10x16384, .i32⟩
  | .hbm, ⟨16, _⟩ => ⟨S163840, .i32⟩
  | .hbm, ⟨17, _⟩ => ⟨S_, .i32⟩
  | .hbm, ⟨18, _⟩ => ⟨S163840, .i32⟩
  | .hbm, ⟨19, _⟩ => ⟨S163840, .i1⟩
  | .hbm, ⟨20, _⟩ => ⟨S_, .i32⟩
  | .hbm, ⟨21, _⟩ => ⟨S163840, .i32⟩
  | .hbm, ⟨22, _⟩ => ⟨S163840, .i32⟩
  | .hbm, ⟨23, _⟩ => ⟨S163840, .i32⟩
  | .hbm, ⟨24, _⟩ => ⟨S163840x1, .i32⟩
  | .hbm, ⟨25, _⟩ => ⟨S163840x256, .f32⟩
  | .hbm, ⟨26, _⟩ => ⟨S163840x256, .bf16⟩
  | .hbm, ⟨27, _⟩ => ⟨S10x16384x256, .bf16⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x256, .f32⟩
  | .hbm, ⟨37, _⟩ => ⟨S16384x256, .bf16⟩
  | .hbm, ⟨38, _⟩ => ⟨S256x256, .f32⟩
  | .hbm, ⟨39, _⟩ => ⟨S256x256, .bf16⟩
  | .hbm, ⟨40, _⟩ => ⟨S256x256, .f32⟩
  | .hbm, ⟨41, _⟩ => ⟨S256x256, .bf16⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S16384x256, .f32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S100000x256, .f32⟩
  | .local _ .vmem, ⟨0, _⟩ => ⟨S10x512x256, .bf16⟩
  | .local _ .vmem, ⟨1, _⟩ => ⟨S10x512x256, .bf16⟩
  | .local _ .vmem, ⟨2, _⟩ => ⟨S512x256, .bf16⟩
  | .local _ .vmem, ⟨3, _⟩ => ⟨S512x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_1 : Ref sig .tc := ⟨.hbm, 28, rfl⟩
abbrev main_call0_v12 : Ref sig .tc := ⟨.hbm, 29, rfl⟩
abbrev main_call0_v13 : Ref sig .tc := ⟨.hbm, 30, rfl⟩
abbrev main_call0_c_2 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_v0_0 : Ref sig .tc := ⟨.hbm, 45, rfl⟩
abbrev main_call0_c_3 : Ref sig .tc := ⟨.hbm, 46, rfl⟩
abbrev main_call0_v28 : Ref sig .tc := ⟨.hbm, 47, rfl⟩
abbrev main_call0_v29 : Ref sig .tc := ⟨.hbm, 48, rfl⟩
abbrev main_call0_c_4 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_v0_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S163840_S16384x10 : S163840.ShapeCasts S16384x10
  transposes_S16384x10_S10x16384_1_0 : S16384x10.Transposes [1, 0] S10x16384
  shapeCasts_S10x16384_S163840 : S10x16384.ShapeCasts S163840
  bcast_S_S163840 : S_.BroadcastsInDim S163840 (![] : Fin 0 → Fin S163840.rank)
  bcast_S163840_S163840x1_0 : S163840.BroadcastsInDim S163840x1 (![0] : Fin 1 → Fin S163840x1.rank)
  bitsLt_bf16_f32 : FTy.bits .bf16 < FTy.bits .f32
  shapeCasts_S163840x256_S10x16384x256 : S163840x256.ShapeCasts S10x16384x256
  bcast_S_S16384 : S_.BroadcastsInDim S16384 (![] : Fin 0 → Fin S16384.rank)
  bcast_S16384_S16384x1_0 : S16384.BroadcastsInDim S16384x1 (![0] : Fin 1 → Fin S16384x1.rank)
  slices_S512x256_S256x256_0_0 : S512x256.Slices ![0, 0] S256x256
  slices_S512x256_S256x256_256_0 : S512x256.Slices ![256, 0] S256x256
  shapeCasts_S256_S1x256 : S256.ShapeCasts S1x256
  inb_S10x512x256_S10x512x256_0_0_0 : ∀ a, (![0, 0, 0] : Fin 3 → Nat) a + S10x512x256.size a ≤ S10x512x256.size a
  h_S10x512x256 : 0 < S10x512x256.numel
  shapeCasts_S10x512x256_S10x512x256 : S10x512x256.ShapeCasts S10x512x256
  reduces_S10x512x256_S512x256 : S10x512x256.Reduces [0] S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  gather_S100000x256_S163840x1_S163840x256_1_0_n_n_0_1_1256_wf : GatherDims.WF S100000x256 S163840x1 S163840x256 [1] [0] [] [0] [] 1 ![1, 256]
  gather_S100000x256_S16384x1_S16384x256_1_0_n_n_0_1_1256_wf : GatherDims.WF S100000x256 S16384x1 S16384x256 [1] [0] [] [0] [] 1 ![1, 256]
  scatter_S100000x256_S16384x1_S16384x256_1_0_0_1_wf : ScatterDims.WF S100000x256 S16384x1 S16384x256 [1] [0] [0] 1
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x512x256.size a ≤ S10x16384x256.size a
  hwx0_0 : ∀ i : grid0.Coords, EltTy.bits .bf16 = 32 ∨ (Rect.block (s := S10x16384x256) S10x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S16384x256.size a
  hwx0_1 : ∀ i : grid0.Coords, EltTy.bits .bf16 = 32 ∨ (Rect.block (s := S16384x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)

variable [Facts₀]

def gather_S100000x256_S163840x1_S163840x256_1_0_n_n_0_1_1256 : GatherDims S100000x256 S163840x1 S163840x256 where
  offsetDims := [1]
  collapsedSliceDims := [0]
  operandBatchingDims := []
  startIndicesBatchingDims := []
  startIndexMap := [0]
  indexVectorDim := 1
  sliceSizes := ![1, 256]
  wf := gather_S100000x256_S163840x1_S163840x256_1_0_n_n_0_1_1256_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def scatter_S100000x256_S16384x1_S16384x256_1_0_0_1 : ScatterDims S100000x256 S16384x1 S16384x256 where
  updateWindowDims := [1]
  insertedWindowDims := [0]
  scatterDimsToOperandDims := [0]
  indexVectorDim := 1
  wf := scatter_S100000x256_S16384x1_S16384x256_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_call0_v11) S10x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x256 : Shape := ⟨2, ![512, 256]⟩
abbrev S256 : Shape := ⟨1, ![256]⟩
abbrev S16384 : Shape := ⟨1, ![16384]⟩
abbrev S163840 : Shape := ⟨1, ![163840]⟩
abbrev S_ : Shape := ⟨0, ![]⟩
abbrev S163840x1 : Shape := ⟨2, ![163840, 1]⟩
abbrev S163840x256 : Shape := ⟨2, ![163840, 256]⟩
abbrev S16384x10 : Shape := ⟨2, ![16384, 10]⟩
abbrev S16384x256 : Shape := ⟨2, ![16384, 256]⟩
abbrev S16384x1 : Shape := ⟨2, ![16384, 1]⟩
abbrev S16384x512 : Shape := ⟨2, ![16384, 512]⟩
abbrev S1x256 : Shape := ⟨2, ![1, 256]⟩

abbrev nBuf : Space → Nat
  | .hbm => 153
  | .vmem => 0
  | .smem => 0
  | _ => 0

abbrev hbmTy0_0 (i : Nat) : BufTy := match i % 128 with
  | 0 => ⟨S100000x256, .f32⟩
  | 1 => ⟨S100000x256, .f32⟩
  | 2 => ⟨S100000x256, .f32⟩
  | 3 => ⟨S512x256, .f32⟩
  | 4 => ⟨S256, .f32⟩
  | 5 => ⟨S256, .f32⟩
  | 6 => ⟨S256, .f32⟩
  | 7 => ⟨S512x256, .f32⟩
  | 8 => ⟨S256, .f32⟩
  | 9 => ⟨S256, .f32⟩
  | 10 => ⟨S256, .f32⟩
  | 11 => ⟨S16384, .i32⟩
  | 12 => ⟨S163840, .i32⟩
  | 13 => ⟨S163840, .i32⟩
  | 14 => ⟨S_, .i32⟩
  | 15 => ⟨S163840, .i32⟩
  | 16 => ⟨S163840, .i1⟩
  | 17 => ⟨S_, .i32⟩
  | 18 => ⟨S163840, .i32⟩
  | 19 => ⟨S163840, .i32⟩
  | 20 => ⟨S163840, .i32⟩
  | 21 => ⟨S163840x1, .i32⟩
  | 22 => ⟨S163840x256, .f32⟩
  | 23 => ⟨S16384, .i32⟩
  | 24 => ⟨S16384x10, .i32⟩
  | 25 => ⟨S163840, .i32⟩
  | 26 => ⟨S_, .f32⟩
  | 27 => ⟨S16384x256, .f32⟩
  | 28 => ⟨S163840x1, .i32⟩
  | 29 => ⟨S16384x256, .f32⟩
  | 30 => ⟨S_, .f32⟩
  | 31 => ⟨S16384x256, .f32⟩
  | 32 => ⟨S16384x256, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384x256, .f32⟩
  | 42 => ⟨S16384x512, .f32⟩
  | 43 => ⟨S16384x256, .f32⟩
  | 44 => ⟨S1x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S16384x256, .f32⟩
  | 57 => ⟨S16384x256, .f32⟩
  | 58 => ⟨S16384x256, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S16384x256, .f32⟩
  | 66 => ⟨S16384x256, .f32⟩
  | 67 => ⟨S1x256, .f32⟩
  | 68 => ⟨S16384x256, .f32⟩
  | 69 => ⟨S16384x256, .f32⟩
  | 70 => ⟨S_, .f32⟩
  | 71 => ⟨S16384x1, .f32⟩
  | 72 => ⟨S16384x1, .f32⟩
  | 73 => ⟨S16384x1, .f32⟩
  | 74 => ⟨S16384x256, .f32⟩
  | 75 => ⟨S16384x256, .f32⟩
  | 76 => ⟨S1x256, .f32⟩
  | 77 => ⟨S16384x256, .f32⟩
  | 78 => ⟨S16384x256, .f32⟩
  | 79 => ⟨S_, .i32⟩
  | 80 => ⟨S163840, .i32⟩
  | 81 => ⟨S163840, .i1⟩
  | 82 => ⟨S_, .i32⟩
  | 83 => ⟨S163840, .i32⟩
  | 84 => ⟨S163840, .i32⟩
  | 85 => ⟨S163840, .i32⟩
  | 86 => ⟨S163840x1, .i32⟩
  | 87 => ⟨S163840x256, .f32⟩
  | 88 => ⟨S16384, .i32⟩
  | 89 => ⟨S16384x10, .i32⟩
  | 90 => ⟨S163840, .i32⟩
  | 91 => ⟨S_, .f32⟩
  | 92 => ⟨S16384x256, .f32⟩
  | 93 => ⟨S163840x1, .i32⟩
  | 94 => ⟨S16384x256, .f32⟩
  | 95 => ⟨S_, .f32⟩
  | 96 => ⟨S16384x256, .f32⟩
  | 97 => ⟨S16384x256, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x256, .f32⟩
  | 107 => ⟨S16384x512, .f32⟩
  | 108 => ⟨S16384x256, .f32⟩
  | 109 => ⟨S1x256, .f32⟩
  | 110 => ⟨S16384x256, .f32⟩
  | 111 => ⟨S16384x256, .f32⟩
  | 112 => ⟨S_, .f32⟩
  | 113 => ⟨S16384x256, .f32⟩
  | 114 => ⟨S16384x256, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S16384x256, .f32⟩
  | 122 => ⟨S16384x256, .f32⟩
  | 123 => ⟨S16384x256, .f32⟩
  | 124 => ⟨S_, .f32⟩
  | 125 => ⟨S16384, .f32⟩
  | 126 => ⟨S16384x1, .f32⟩
  | 127 => ⟨S_, .f32⟩
  | _ => ⟨S100000x256, .f32⟩

abbrev hbmTy0_1 (i : Nat) : BufTy := match i % 128 with
  | 0 => ⟨S16384x1, .f32⟩
  | 1 => ⟨S16384x1, .f32⟩
  | 2 => ⟨S16384x256, .f32⟩
  | 3 => ⟨S16384x256, .f32⟩
  | 4 => ⟨S1x256, .f32⟩
  | 5 => ⟨S16384x256, .f32⟩
  | 6 => ⟨S16384x256, .f32⟩
  | 7 => ⟨S_, .f32⟩
  | 8 => ⟨S16384x1, .f32⟩
  | 9 => ⟨S16384x1, .f32⟩
  | 10 => ⟨S16384x1, .f32⟩
  | 11 => ⟨S16384x256, .f32⟩
  | 12 => ⟨S16384x256, .f32⟩
  | 13 => ⟨S1x256, .f32⟩
  | 14 => ⟨S16384x256, .f32⟩
  | 15 => ⟨S16384x256, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_call1_cst : Ref sig .tc := ⟨.hbm, 112, rfl⟩
abbrev main_call1_v0 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_20 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]

class Facts₀ : Prop where
  bcast_S_S163840 : S_.BroadcastsInDim S163840 (![] : Fin 0 → Fin S163840.rank)
  bcast_S163840_S163840x1_0 : S163840.BroadcastsInDim S163840x1 (![0] : Fin 1 → Fin S163840x1.rank)
  bcast_S16384_S16384x10_0 : S16384.BroadcastsInDim S16384x10 (![0] : Fin 1 → Fin S16384x10.rank)
  shapeCasts_S16384x10_S163840 : S16384x10.ShapeCasts S163840
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x256_S16384x256_S16384x512_d1 : Shape.Concatenates [S16384x256, S16384x256] S16384x512 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  h_S_ : 0 < S_.numel
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  gather_S100000x256_S163840x1_S163840x256_1_0_n_n_0_1_1256_wf : GatherDims.WF S100000x256 S163840x1 S163840x256 [1] [0] [] [0] [] 1 ![1, 256]
  scatter_S16384x256_S163840x1_S163840x256_1_0_0_1_wf : ScatterDims.WF S16384x256 S163840x1 S163840x256 [1] [0] [0] 1
  gather_S100000x256_S16384x1_S16384x256_1_0_n_n_0_1_1256_wf : GatherDims.WF S100000x256 S16384x1 S16384x256 [1] [0] [] [0] [] 1 ![1, 256]
  dot_S16384x512_S512x256_S16384x256_1_0_0_1_n_n_wf : DotDims.WF S16384x512 S512x256 S16384x256 [1] [0] [0] [1] [] []
  scatter_S100000x256_S16384x1_S16384x256_1_0_0_1_wf : ScatterDims.WF S100000x256 S16384x1 S16384x256 [1] [0] [0] 1

variable [Facts₀]

def gather_S100000x256_S163840x1_S163840x256_1_0_n_n_0_1_1256 : GatherDims S100000x256 S163840x1 S163840x256 where
  offsetDims := [1]
  collapsedSliceDims := [0]
  operandBatchingDims := []
  startIndicesBatchingDims := []
  startIndexMap := [0]
  indexVectorDim := 1
  sliceSizes := ![1, 256]
  wf := gather_S100000x256_S163840x1_S163840x256_1_0_n_n_0_1_1256_wf
def scatter_S16384x256_S163840x1_S163840x256_1_0_0_1 : ScatterDims S16384x256 S163840x1 S163840x256 where
  updateWindowDims := [1]
  insertedWindowDims := [0]
  scatterDimsToOperandDims := [0]
  indexVectorDim := 1
  wf := scatter_S16384x256_S163840x1_S163840x256_1_0_0_1_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def scatter_S100000x256_S16384x1_S16384x256_1_0_0_1 : ScatterDims S100000x256 S16384x1 S16384x256 where
  updateWindowDims := [1]
  insertedWindowDims := [0]
  scatterDimsToOperandDims := [0]
  indexVectorDim := 1
  wf := scatter_S100000x256_S16384x1_S16384x256_1_0_0_1_wf

class Facts : Prop extends Facts₀ where

variable [Facts]
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Spec.lean ====
/-
  The mathematics both programs compute, for one batch row, on the extended reals, and the two re-indexings of sums
  that join them.

  A batch row has ten neighbour rows `nb s` and one self row `sf`, each of 256 features. Its result is
    `lnorm (relu (agg nb · W_top + sf · W_bottom + b))`
  where `agg nb` is the mean of the ten neighbour rows (their sum divided by 10), `W_top` and `W_bottom` are the upper and
  lower 256 rows of the 512-row weight matrix, `relu h = max h 0`, and `lnorm` subtracts the row's mean, divides by the
  square root of its variance plus `eps` (both means are sums divided by 256) and applies the scale `g` and the shift `be`.

  One program forms the 512-long product of the concatenated row with the whole matrix, the other the two 256-long
  products and adds them: a sum over 512 indices is the sum over its two halves (`sum_halves`). One program sums a
  row's ten neighbours directly, the other adds every one of the 163840 gathered rows into the batch row whose number
  is the gathered row's position divided by 10: the terms with quotient `r` are the ten at positions `10 r + s`
  (`sum_segment`). Neither step moves a factor across a sum, so nothing here needs the inputs to be finite.
-/
import Idealize.ShloMosaic.PureOps.Ideal
import Idealize.ShloMosaic.PureOps.Ideal.Laws
import proofs.«407667_j45320494908016_3_alg».proof.Proof.LibSums

noncomputable section

open scoped BigOperators

namespace Cert.Spec

open Idealize.ShloMosaic

/-- The divisor of the neighbour mean, 10, as the extended real its word denotes. -/
abbrev c10 : EReal := Ideal.ofBits .f32 0x41200000#32
/-- The divisor of the two feature means, 256. -/
abbrev c256 : EReal := Ideal.ofBits .f32 0x43800000#32
/-- The variance's offset (the f32 nearest to 1e-5). -/
abbrev eps : EReal := Ideal.ofBits .f32 0x3727C5AC#32

/-- Feature `k` of the mean of the ten neighbour rows. -/
def agg (nb : Fin 10 → Fin 256 → EReal) (k : Fin 256) : EReal := Ideal.div (∑ s : Fin 10, nb s k) c10

/-- Row `k` of the weight matrix's upper half … -/
abbrev lo (k : Fin 256) : Fin 512 := ⟨k.val, by omega⟩
/-- … and of its lower half. -/
abbrev hi (k : Fin 256) : Fin 512 := ⟨256 + k.val, by omega⟩

/-- The linear layer at output feature `d`: the aggregated row against the upper half `Wt` of the weight matrix, the self
    row against its lower half `Wb`, plus the bias. -/
def pre (a sf : Fin 256 → EReal) (Wt Wb : Fin 256 → Fin 256 → EReal) (b : Fin 256 → EReal) (d : Fin 256) : EReal :=
  ((∑ k : Fin 256, a k * Wt k d) + ∑ k : Fin 256, sf k * Wb k d) + b d

/-- The mean of a row of 256 features. -/
def mean256 (h : Fin 256 → EReal) : EReal := Ideal.div (∑ k : Fin 256, h k) c256

/-- Layer normalisation of a row, at feature `d`. -/
def lnorm (h g be : Fin 256 → EReal) (d : Fin 256) : EReal :=
  g d * (h d - mean256 h) * Ideal.rsqrt (mean256 (fun k => (h k - mean256 h) * (h k - mean256 h)) + eps) + be d

/-- One batch row's result at feature `d`. -/
def row (nb : Fin 10 → Fin 256 → EReal) (sf : Fin 256 → EReal) (Wt Wb : Fin 256 → Fin 256 → EReal) (b g be : Fin 256 → EReal)
    (d : Fin 256) : EReal :=
  lnorm (fun k => max (pre (agg nb) sf Wt Wb b k) 0) g be d

/-- A sum over 512 indices is the sum over the first 256 plus the sum over the last 256. -/
theorem sum_halves (f : Fin 512 → EReal) : ∑ k : Fin 512, f k = (∑ k : Fin 256, f (lo k)) + ∑ k : Fin 256, f (hi k) :=
  Fin.sum_univ_add (a := 256) (b := 256) (fun k : Fin (256 + 256) => f k)

/-- Position `10 r + s` among the 163840 gathered rows. -/
abbrev pos (r : Fin 16384) (s : Fin 10) : Fin 163840 := ⟨r.val * 10 + s.val, by omega⟩

/-- Of 163840 terms, those whose position divided by 10 is `r` are the ten at positions `10 r + s`. -/
theorem sum_segment (f : Fin 163840 → EReal) (r : Fin 16384) :
    ∑ p ∈ Finset.univ.filter (fun p : Fin 163840 => p.val / 10 = r.val), f p = ∑ s : Fin 10, f (pos r s) := by
  rw [Finset.sum_filter]
  have hb := Cert.LibSums.sum_blocks (M := EReal) 16384 10 (fun p : Fin (16384 * 10) => if p.val / 10 = r.val then f p else 0)
  rw [show (∑ p : Fin 163840, if p.val / 10 = r.val then f p else 0)
      = ∑ k : Fin (16384 * 10), (fun p : Fin (16384 * 10) => if p.val / 10 = r.val then f p else 0) k from rfl, ← hb]
  rw [Finset.sum_eq_single r]
  · refine Finset.sum_congr rfl fun s _ => ?_
    have hq : (r.val * 10 + s.val) / 10 = r.val := by have := s.isLt; omega
    show (if (r.val * 10 + s.val) / 10 = r.val then f ⟨r.val * 10 + s.val, _⟩ else 0) = _
    rw [if_pos hq]
  · intro b _ hbr
    refine Finset.sum_eq_zero fun s _ => ?_
    have hq : ¬ (b.val * 10 + s.val) / 10 = r.val := by
      have := s.isLt
      intro h
      exact hbr (Fin.ext (by omega))
    show (if (b.val * 10 + s.val) / 10 = r.val then f ⟨b.val * 10 + s.val, _⟩ else 0) = 0
    rw [if_neg hq]
  · intro h; exact absurd (Finset.mem_univ r) h

end Cert.Spec

end
-- ==== Proof.LibVecRead.lean ====
/-
  Small layout and reduction readings at an index, over literal shapes: a column `[a, 1]` broadcast along rows, a vector
  `[a]` recast as a column `[a, 1]`, and at the ideal values the sum of a matrix along its rows (axis 1) and the sum of a
  stack of matrices along its leading axis (axis 0), each as a `Fin`-indexed sum over the summed coordinate.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.VecRead

open Idealize.ShloMosaic Idealize.ShloMosaic.ValueIdx

variable {α : Type}

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as a column `[a, 1]` reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- At the ideal values the sum of a matrix along axis 1, at row `p`, is the sum of the row's entries. -/
theorem rowSum_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  rw [Ideal.multiReduction_add_single]
  refine Finset.sum_congr rfl fun k _ => congrArg v ?_
  funext ax
  refine Fin.ext ?_
  match ax with
  | ⟨0, _⟩ => rfl
  | ⟨1, _⟩ => rfl

/-- At the ideal values the sum of a stack of `n` matrices along axis 0, at `(p, q)`, is the sum over the stack of the
    entries at `(p, q)`. -/
theorem leadSum_apply {φ : FTy} {n a b : ℕ} (v : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (p : Fin a) (q : Fin b) :
    multiReduction .add [0] ⟨2, ![a, b]⟩ v acc h hφ hacc (ix2 p q) = ∑ s : Fin n, v (ix3 s p q) := by
  rw [Ideal.multiReduction_add_single]
  refine Finset.sum_congr rfl fun s _ => congrArg v ?_
  funext ax
  refine Fin.ext ?_
  match ax with
  | ⟨0, _⟩ => rfl
  | ⟨1, _⟩ => rfl
  | ⟨2, _⟩ => rfl

end Cert.VecRead

end
-- ==== Proof.KernelBody.lean ====
/-
  The kernel body's arithmetic, read at one element of its output block.

  The body loads a block of ten neighbour slabs `x0 : [10, 512, 256]`, the block's self rows `x1 : [512, 256]`, the two
  halves of the weight matrix `x2`, `x3 : [256, 256]`, and the bias, scale and shift rows `x4`, `x5`, `x6 : [1, 256]`, and stores
  one `[512, 256]` block. At `(p, q)` the stored value is the row formula of Spec.lean for block row `p`: every operation of
  the body is read at an index (the sums over the neighbour axis, the contraction axis and the feature axis as
  `Fin`-indexed sums, the format changes as the identity, the broadcasts of a row or a column as that row or column).
-/
import proofs.«407667_j45320494908016_3_alg».proof.Proof.Gen.KernelIdeal.Skeleton
import proofs.«407667_j45320494908016_3_alg».proof.Proof.Spec
import proofs.«407667_j45320494908016_3_alg».proof.Proof.LibVecRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.VecRead

/-! ## The block matrix product at an element -/

theorem lhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The block product into a zero accumulator, at `(p, d)`: row `p` of the left factor against column `d` of the right. -/
theorem matmul_at {φ₁ φ₂ : FTy} (A : FVec Ideal S512x256 φ₁) (B : FVec Ideal S256x256 φ₂) (p : Fin 512) (d : Fin 256) :
    matmul dot_S512x256_S256x256_S512x256_1_0_0_1_n_n none A B (constant S512x256 .f32 0x00000000#32) (ix2 p d)
      = ∑ k : Fin 256, A (ix2 p k) * B (ix2 k d) := by
  simp only [matmul]
  rw [Ideal.matmul_constant_zero_apply,
    ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p d)
      ((ValueIdx.contrEquiv1 dot_S512x256_S256x256_S512x256_1_0_0_1_n_n 256 rfl rfl).symm k) = ix2 p k :=
    funext fun a => Fin.ext (by
      match a with
      | ⟨0, _⟩ => exact lhs_0 _ _
      | ⟨1, _⟩ => exact (lhs_1 _ _).trans hk)
  have er : dot_S512x256_S256x256_S512x256_1_0_0_1_n_n.rhsIdx (ix2 p d)
      ((ValueIdx.contrEquiv1 dot_S512x256_S256x256_S512x256_1_0_0_1_n_n 256 rfl rfl).symm k) = ix2 k d :=
    funext fun a => Fin.ext (by
      match a with
      | ⟨0, _⟩ => exact (rhs_0 _ _).trans hk
      | ⟨1, _⟩ => exact rhs_1 _ _)
  rw [el, er]

variable (x0 : FVec Ideal S10x512x256 .bf16) (x1 : FVec Ideal S512x256 .bf16) (x2 x3 : FVec Ideal S256x256 .bf16)
  (x4 x5 x6 : FVec Ideal S1x256 .f32)

/-- Block row `p` after the linear layer and the rectifier. -/
def act (p : Fin 512) (k : Fin 256) : EReal :=
  max (Cert.Spec.pre (Cert.Spec.agg fun s k' => x0 (ix3 s p k')) (fun k' => x1 (ix2 p k')) (fun k' d => x2 (ix2 k' d))
    (fun k' d => x3 (ix2 k' d)) (fun d => x4 (ix2 (0 : Fin 1) d)) k) 0

/-- The body's rectified activations as a block: the mean over the ten neighbour slabs, the two block products, the
    bias row, the maximum with zero — the body's own operations in its own order. -/
def actV : FVec Ideal S512x256 .f32 :=
  maximumf (addf (addf
      (matmul dot_S512x256_S256x256_S512x256_1_0_0_1_n_n none
        (truncf .bf16 (divf (multiReduction .add [0] S512x256
            (extf .f32 (shapeCast S10x512x256 x0 shapeCasts_S10x512x256_S10x512x256) bitsLt_bf16_f32) 0x00000000#32
            reduces_S10x512x256_S512x256 (.inl rfl) rfl) (broadcast S512x256 (Scalar.ofBits .f32 0x41200000#32))) bitsLt_bf16_f32)
        (shapeCast S256x256 x2 shapeCasts_S256x256_S256x256) (constant S512x256 .f32 0x00000000#32))
      (matmul dot_S512x256_S256x256_S512x256_1_0_0_1_n_n none (shapeCast S512x256 x1 shapeCasts_S512x256_S512x256)
        (shapeCast S256x256 x3 shapeCasts_S256x256_S256x256) (constant S512x256 .f32 0x00000000#32)))
    (broadcastTo S512x256 (shapeCast S1x256 x4 shapeCasts_S1x256_S1x256) broadcasts_S1x256_S512x256))
    (broadcast S512x256 (Scalar.ofBits .f32 0x00000000#32))

/-- The activations block at `(p, k)` is the row formula's activation. -/
theorem actV_at (p : Fin 512) (k : Fin 256) : actV x0 x1 x2 x3 x4 (ix2 p k) = act x0 x1 x2 x3 x4 p k := by
  unfold actV act Cert.Spec.pre
  simp only [shapeCast_self, maximumf_apply, addf_apply, broadcast_apply]
  rw [matmul_at, matmul_at, broadcastTo_1b_ab_apply]
  have hl : ∀ k', multiReduction .add [0] S512x256 (extf .f32 x0 bitsLt_bf16_f32) 0x00000000#32 reduces_S10x512x256_S512x256
      (.inl rfl) rfl (ix2 p k') = ∑ s : Fin 10, x0 (ix3 s p k') :=
    fun k' => leadSum_apply (extf .f32 x0 bitsLt_bf16_f32) _ _ _ _ p k'
  simp only [truncf_apply, divf_apply, broadcast_apply, hl, Ideal.ofBits_def, Ideal.ofBits_zero_f32, Cert.Spec.agg]

/-- The body's first carried value — the activations less their row mean — is that block expression … -/
theorem pay2_eq : k0_pay2 (F := Ideal) x0 x1 x2 x3 x4
    = subf (actV x0 x1 x2 x3 x4) (broadcastTo S512x256 (divf (shapeCast S512x1 (multiReduction .add [1] S512 (actV x0 x1 x2 x3 x4)
        0x00000000#32 reduces_S512x256_S512 (.inl rfl) rfl) shapeCasts_S512_S512x1) (broadcast S512x1 (Scalar.ofBits .f32 0x43800000#32)))
        broadcasts_S512x1_S512x256) := rfl

/-- … which at `(p, q)` is the activation less the row's mean. -/
theorem pay2_at (p : Fin 512) (q : Fin 256) :
    k0_pay2 (F := Ideal) x0 x1 x2 x3 x4 (ix2 p q) = act x0 x1 x2 x3 x4 p q - Cert.Spec.mean256 (act x0 x1 x2 x3 x4 p) := by
  rw [pay2_eq]
  have hr : multiReduction .add [1] S512 (actV x0 x1 x2 x3 x4) 0x00000000#32 reduces_S512x256_S512 (.inl rfl) rfl (ix1 p)
      = ∑ k : Fin 256, actV x0 x1 x2 x3 x4 (ix2 p k) := rowSum_apply _ _ _ _ _ p
  simp only [subf_apply, broadcastTo_a1_ab_apply, divf_apply, broadcast_apply, shapeCast_a_a1_apply, hr, actV_at,
    Ideal.ofBits_def, Cert.Spec.mean256]

/-- The body's second carried value — the reciprocal square root of the row variance plus `eps`, a column — … -/
theorem pay3_eq : k0_pay3 (F := Ideal) x0 x1 x2 x3 x4
    = rsqrt (addf (divf (shapeCast S512x1 (multiReduction .add [1] S512
        (mulf (k0_pay2 (F := Ideal) x0 x1 x2 x3 x4) (k0_pay2 (F := Ideal) x0 x1 x2 x3 x4))
        0x00000000#32 reduces_S512x256_S512 (.inl rfl) rfl) shapeCasts_S512_S512x1) (broadcast S512x1 (Scalar.ofBits .f32 0x43800000#32)))
        (broadcast S512x1 (Scalar.ofBits .f32 0x3727C5AC#32))) := rfl

/-- … at row `p`. -/
theorem pay3_at (p : Fin 512) :
    k0_pay3 (F := Ideal) x0 x1 x2 x3 x4 (ix2 p (0 : Fin 1))
      = Ideal.rsqrt (Cert.Spec.mean256 (fun k => (act x0 x1 x2 x3 x4 p k - Cert.Spec.mean256 (act x0 x1 x2 x3 x4 p))
          * (act x0 x1 x2 x3 x4 p k - Cert.Spec.mean256 (act x0 x1 x2 x3 x4 p))) + Cert.Spec.eps) := by
  rw [pay3_eq]
  have hr : multiReduction .add [1] S512 (mulf (k0_pay2 (F := Ideal) x0 x1 x2 x3 x4) (k0_pay2 (F := Ideal) x0 x1 x2 x3 x4))
      0x00000000#32 reduces_S512x256_S512 (.inl rfl) rfl (ix1 p)
      = ∑ k : Fin 256, (mulf (k0_pay2 (F := Ideal) x0 x1 x2 x3 x4) (k0_pay2 (F := Ideal) x0 x1 x2 x3 x4)) (ix2 p k) :=
    rowSum_apply _ _ _ _ _ p
  show Ideal.rsqrt (Ideal.div (shapeCast S512x1 _ shapeCasts_S512_S512x1 (ix2 p (0 : Fin 1))) (Ideal.ofBits .f32 0x43800000#32)
    + Ideal.ofBits .f32 0x3727C5AC#32) = _
  rw [shapeCast_a_a1_apply, hr]
  simp only [mulf_apply, pay2_at, Cert.Spec.mean256]

/-- THE STORED BLOCK at `(p, q)` is the row formula for block row `p`, at feature `q`. -/
theorem body_at (p : Fin 512) (q : Fin 256) :
    k0_pay1 (F := Ideal) (k0_pay2 (F := Ideal) x0 x1 x2 x3 x4) (k0_pay3 (F := Ideal) x0 x1 x2 x3 x4) x5 x6 (ix2 p q)
      = Cert.Spec.row (fun s k' => x0 (ix3 s p k')) (fun k' => x1 (ix2 p k')) (fun k' d => x2 (ix2 k' d))
          (fun k' d => x3 (ix2 k' d)) (fun d => x4 (ix2 (0 : Fin 1) d)) (fun d => x5 (ix2 (0 : Fin 1) d))
          (fun d => x6 (ix2 (0 : Fin 1) d)) q := by
  unfold k0_pay1
  simp only [shapeCast_self, addf_apply, mulf_apply, broadcastTo_1b_ab_apply, broadcastTo_a1_ab_apply, pay2_at, pay3_at]
  rfl

end Cert.KernelIdeal.Body

end
-- ==== Proof.LibRows.lean ====
/-
  Two host operations on a table of rows, read at an index.

  A ROW GATHER: the table `x : [N, C]`, a column of start indices `idx : [n, 1]`; result row `p` is the table's row
  named by `idx[p, 0]`, the word read as a signed integer and clamped into `[0, N - 1]` (`rowOf`).

  A ROW SCATTER WITH ADDITION at the ideal values: the operand `x : [R, C]`, a column of row numbers `idx : [n, 1]`,
  updates `upd : [n, C]`; result element `(r, q)` is `x (r, q)` plus the sum of `upd (p, q)` over the update rows `p`
  whose row number, read signed, is exactly `r` (an update whose row number falls outside the operand adds nothing).
-/
import Idealize.ShloMosaic.PureOps.Ideal
import Idealize.ShloMosaic.PureOps.Ideal.Laws
import Idealize.ShloMosaic.Lib.ValueIdx

noncomputable section

open scoped BigOperators

namespace Cert.Rows

open Idealize.ShloMosaic Idealize.ShloMosaic.ValueIdx

/-- The table row a start-index word names: the word read signed and clamped into `[0, N - 1]`. -/
def rowOf (N : Nat) (hN : 0 < N) {w : Nat} (x : BitVec w) : Fin N := ⟨min x.toInt.toNat (N - 1), by omega⟩

/-- The dimension numbers of a row gather: the row axis collapsed and start-indexed, the column axis an offset axis,
    the index vector along the start indices' second axis. -/
abbrev rowGather (N C n : Nat) (sb : List (Fin 2)) (ss : Fin 2 → Nat)
    (wf : GatherDims.WF ⟨2, ![N, C]⟩ ⟨2, ![n, 1]⟩ ⟨2, ![n, C]⟩ [1] [0] [] [0] sb 1 ss) :
    GatherDims ⟨2, ![N, C]⟩ ⟨2, ![n, 1]⟩ ⟨2, ![n, C]⟩ where
  offsetDims := [1]
  collapsedSliceDims := [0]
  operandBatchingDims := []
  startIndicesBatchingDims := sb
  startIndexMap := [0]
  indexVectorDim := 1
  sliceSizes := ss
  wf := wf

/-- On the row axis the operand index is the clamped start index: the axis is collapsed (no offset coordinate). -/
theorem rowGather_coord0 {N C n w : Nat} (sb : List (Fin 2)) (ss : Fin 2 → Nat)
    (wf : GatherDims.WF ⟨2, ![N, C]⟩ ⟨2, ![n, 1]⟩ ⟨2, ![n, C]⟩ [1] [0] [] [0] sb 1 ss)
    (idx : IVec ⟨2, ![n, 1]⟩ w) (p : Fin n) (q : Fin C) :
    ((rowGather N C n sb ss wf).operandIdx (ix2 p q) idx 0).val = min (idx (ix2 p 0)).toInt.toNat (N - 1) := by
  show (rowGather N C n sb ss wf).start (ix2 p q) idx 0 + (rowGather N C n sb ss wf).batchCoord (ix2 p q) 0
    + (rowGather N C n sb ss wf).offCoord (ix2 p q) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  have hsl : ss 0 = 1 := (rowGather N C n sb ss wf).slice_collapsed 0 (List.mem_singleton.mpr rfl)
  unfold GatherDims.start
  rw [dif_pos (show (0 : Fin 2) ∈ (rowGather N C n sb ss wf).startIndexMap from List.mem_singleton.mpr rfl)]
  show min (idx _).toInt.toNat (N - ss 0) = min (idx (ix2 p 0)).toInt.toNat (N - 1)
  rw [hsl]
  congr 3
  congr 1
  funext b
  refine Fin.ext ?_
  match b with
  | ⟨0, _⟩ => rfl
  | ⟨1, _⟩ => rfl

/-- On the column axis the operand index is the result's column: the axis is not start-indexed, and it is the one
    offset axis. -/
theorem rowGather_coord1 {N C n w : Nat} (sb : List (Fin 2)) (ss : Fin 2 → Nat)
    (wf : GatherDims.WF ⟨2, ![N, C]⟩ ⟨2, ![n, 1]⟩ ⟨2, ![n, C]⟩ [1] [0] [] [0] sb 1 ss)
    (idx : IVec ⟨2, ![n, 1]⟩ w) (p : Fin n) (q : Fin C) :
    ((rowGather N C n sb ss wf).operandIdx (ix2 p q) idx 1).val = q.val := by
  show (rowGather N C n sb ss wf).start (ix2 p q) idx 1 + (rowGather N C n sb ss wf).batchCoord (ix2 p q) 1
    + (rowGather N C n sb ss wf).offCoord (ix2 p q) 1 = _
  rw [GatherDims.batchCoord_eq_zero _ _ _ List.not_mem_nil, Nat.add_zero]
  have hs : (rowGather N C n sb ss wf).start (ix2 p q) idx 1 = 0 := by
    unfold GatherDims.start
    rw [dif_neg (show ¬ (1 : Fin 2) ∈ [(0 : Fin 2)] by decide)]
  rw [hs, Nat.zero_add]
  rfl

theorem rowGather_apply {α : Type} {N C n w : Nat} (hN : 0 < N) (sb : List (Fin 2)) (ss : Fin 2 → Nat)
    (wf : GatherDims.WF ⟨2, ![N, C]⟩ ⟨2, ![n, 1]⟩ ⟨2, ![n, C]⟩ [1] [0] [] [0] sb 1 ss)
    (x : (⟨2, ![N, C]⟩ : Shape).Idx → α) (idx : IVec ⟨2, ![n, 1]⟩ w) (p : Fin n) (q : Fin C) :
    Host.gather (rowGather N C n sb ss wf) x idx (ix2 p q) = x (ix2 (rowOf N hN (idx (ix2 p 0))) q) := by
  unfold Host.gather
  congr 1
  funext a
  refine Fin.ext ?_
  match a with
  | ⟨0, _⟩ => exact rowGather_coord0 sb ss wf idx p q
  | ⟨1, _⟩ => exact rowGather_coord1 sb ss wf idx p q

/-- Result element `(p, q)` of a row gather is the table at row `rowOf (idx (p, 0))`, column `q`: for any dimension
    numbers of that kind (the five equations say which kind). -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) :
    Host.gather d x idx (ix2 p q) = x (ix2 (rowOf N hN (idx (ix2 p 0))) q) := by
  obtain ⟨od, cs, ob, sb, sim, ivd, ss, wf⟩ := d
  dsimp only at hoff hcoll hob hsim hivd
  subst hoff hcoll hob hsim hivd
  exact rowGather_apply hN sb ss wf x idx p q

/-! ## The row scatter with addition -/

/-- The dimension numbers of a row scatter: the updates' column axis a window axis, the operand's row axis inserted and
    named by the one scatter index, the index vector along the scatter indices' second axis. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section RowScatter
variable {R C n w : Nat} (wf : ScatterDims.WF ⟨2, ![R, C]⟩ ⟨2, ![n, 1]⟩ ⟨2, ![n, C]⟩ [1] [0] [0] 1)
  (idx : IVec ⟨2, ![n, 1]⟩ w) (p : Fin n) (q : Fin C)

/-- On the row axis the window starts at the update row's row number, read signed … -/
theorem rowScatter_start0 : (rowScatter R C n wf).start (ix2 p q) idx 0 = (idx (ix2 p 0)).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl
/-- … on the column axis at 0. -/
theorem rowScatter_start1 : (rowScatter R C n wf).start (ix2 p q) idx 1 = 0 := by
  unfold ScatterDims.start
  rw [dif_neg (show ¬ (1 : Fin 2) ∈ [(0 : Fin 2)] by decide)]
/-- The window coordinate is 0 on the row axis (an inserted axis) … -/
theorem rowScatter_window0 : (rowScatter R C n wf).window (ix2 p q) 0 = 0 := by
  unfold ScatterDims.window
  rw [dif_neg (show ¬ (0 : Fin 2) ∈ (rowScatter R C n wf).sKept by simp [ScatterDims.sKept, Shape.kept])]
/-- … and the update's column on the column axis. -/
theorem rowScatter_window1 : (rowScatter R C n wf).window (ix2 p q) 1 = q.val := by
  unfold ScatterDims.window
  rw [dif_pos (show (1 : Fin 2) ∈ (rowScatter R C n wf).sKept by simp [ScatterDims.sKept, Shape.kept])]
  rfl

/-- Where update element `(p, q)` lands: on the row its row number names (read signed) … -/
theorem rowScatter_land0 :
    (rowScatter R C n wf).start (ix2 p q) idx 0 + ((rowScatter R C n wf).window (ix2 p q) 0 : Int) = (idx (ix2 p 0)).toInt := by
  rw [rowScatter_start0, rowScatter_window0]; simp
/-- … in its own column. -/
theorem rowScatter_land1 :
    (rowScatter R C n wf).start (ix2 p q) idx 1 + ((rowScatter R C n wf).window (ix2 p q) 1 : Int) = (q.val : Int) := by
  rw [rowScatter_start1, rowScatter_window1]; simp

/-- Update element `(p, q)` lands on operand element `(r, q')` exactly when its row number, read signed, is `r` and
    `q = q'`. -/
theorem rowScatter_resultIdx_eq (r : Fin R) (q' : Fin C) :
    (rowScatter R C n wf).resultIdx? (ix2 p q) idx = some (ix2 r q') ↔ (idx (ix2 p 0)).toInt = (r.val : Int) ∧ q = q' := by
  unfold ScatterDims.resultIdx?
  constructor
  · intro h
    split at h
    · rename_i hall
      have h' := Option.some.inj h
      have e0 : ((rowScatter R C n wf).start (ix2 p q) idx 0 + ((rowScatter R C n wf).window (ix2 p q) 0 : Int)).toNat = r.val :=
        congrArg (fun f : (⟨2, ![R, C]⟩ : Shape).Idx => (f 0).val) h'
      have e1 : ((rowScatter R C n wf).start (ix2 p q) idx 1 + ((rowScatter R C n wf).window (ix2 p q) 1 : Int)).toNat = q'.val :=
        congrArg (fun f : (⟨2, ![R, C]⟩ : Shape).Idx => (f 1).val) h'
      have h0 := (hall 0).1
      rw [rowScatter_land0] at e0 h0
      rw [rowScatter_land1] at e1
      exact ⟨by omega, Fin.ext (by omega)⟩
    · exact absurd h (by simp)
  · rintro ⟨hr, rfl⟩
    have hall : ∀ a, 0 ≤ (rowScatter R C n wf).start (ix2 p q) idx a + ((rowScatter R C n wf).window (ix2 p q) a : Int)
        ∧ (rowScatter R C n wf).start (ix2 p q) idx a + ((rowScatter R C n wf).window (ix2 p q) a : Int)
          < ((⟨2, ![R, C]⟩ : Shape).size a : Int) := by
      refine Fin.forall_fin_two.mpr ⟨?_, ?_⟩
      · rw [rowScatter_land0, hr]
        exact ⟨by omega, by exact_mod_cast r.isLt⟩
      · rw [rowScatter_land1]
        exact ⟨by omega, by exact_mod_cast q.isLt⟩
    rw [dif_pos hall]
    congr 1
    funext a
    refine Fin.ext ?_
    have c0 : ((rowScatter R C n wf).start (ix2 p q) idx 0 + ((rowScatter R C n wf).window (ix2 p q) 0 : Int)).toNat = r.val := by
      rw [rowScatter_land0, hr]; simp
    have c1 : ((rowScatter R C n wf).start (ix2 p q) idx 1 + ((rowScatter R C n wf).window (ix2 p q) 1 : Int)).toNat = q.val := by
      rw [rowScatter_land1]; simp
    match a with
    | ⟨0, _⟩ => exact c0
    | ⟨1, _⟩ => exact c1

/-- THE SCATTER WITH ADDITION READ AT `(r, q)`: the operand there plus the sum of column `q` of the update rows whose
    row number, read signed, is `r`. -/
theorem rowScatter_add_apply (x : (⟨2, ![R, C]⟩ : Shape).Idx → EReal) (upd : (⟨2, ![n, C]⟩ : Shape).Idx → EReal) (r : Fin R) :
    Ideal.hostScatterAdd (rowScatter R C n wf) x idx upd (ix2 r q)
      = x (ix2 r q) + ∑ p' ∈ Finset.univ.filter (fun p' : Fin n => (idx (ix2 p' 0)).toInt = (r.val : Int)), upd (ix2 p' q) := by
  unfold Ideal.hostScatterAdd
  congr 1
  rw [Finset.sum_filter, sum_idx2, Finset.sum_filter]
  refine Finset.sum_congr rfl fun p' _ => ?_
  simp only [rowScatter_resultIdx_eq]
  by_cases h : (idx (ix2 p' 0)).toInt = (r.val : Int)
  · simp only [h, true_and, if_true]
    rw [Finset.sum_ite_eq' Finset.univ q (fun b => upd (ix2 p' b))]
    simp
  · simp only [h, false_and, if_false]
    exact Finset.sum_const_zero

end RowScatter

/-- The same for any dimension numbers of that kind (the four equations say which kind). -/
theorem scatterAdd_rows_apply {R C n w : Nat} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![R, C]⟩ : Shape).Idx → EReal) (idx : IVec ⟨2, ![n, 1]⟩ w) (upd : (⟨2, ![n, C]⟩ : Shape).Idx → EReal)
    (r : Fin R) (q : Fin C) :
    Ideal.hostScatterAdd d x idx upd (ix2 r q)
      = x (ix2 r q) + ∑ p ∈ Finset.univ.filter (fun p : Fin n => (idx (ix2 p 0)).toInt = (r.val : Int)), upd (ix2 p q) := by
  obtain ⟨uw, iw, sd, ivd, wf⟩ := d
  dsimp only at huw hiw hsd hivd
  subst huw hiw hsd hivd
  exact rowScatter_add_apply wf idx q x upd r

end Cert.Rows

end
-- ==== Proof.Whole.lean ====
/-
  The layer's output as ONE function of the argument arrays, index by index.

  Batch row `r`, feature `d`: the row formula of Spec.lean at
    * the ten neighbour rows `hidden1[neigh2[10 r + s]]`, `s < 10`,
    * the self row `hidden1[node_batch[r]]`,
    * the two halves of the weight matrix, the bias, the scale and the shift.
  A table index is an integer word: a negative one counts back from the table's end (`nw` adds the table's 100000 rows),
  and the gather then clamps it into the table (`Rows.rowOf`); so every word names a row (`tableRow`) and the function is
  defined for all index inputs.
-/
import proofs.«407667_j45320494908016_3_alg».proof.Proof.Spec
import proofs.«407667_j45320494908016_3_alg».proof.Proof.LibRows

noncomputable section

namespace Cert.Whole

open Idealize.ShloMosaic Idealize.ShloMosaic.ValueIdx

/-- An index word with a negative value moved up by the table's 100000 rows. -/
def nw (x : BitVec 32) : BitVec 32 := Scalar.select (IntOp.cmpi .slt x 0#32) (IntOp.addi x 100000#32) x

/-- The table row an index word names. -/
def tableRow (x : BitVec 32) : Fin 100000 := Cert.Rows.rowOf 100000 (by decide) (nw x)

/-- The layer's output at `(r, d)`, from the table `x1`, the weights `W`, the bias `b`, the scale `g`, the shift `be`, the
    batch's node indices `x11` and its neighbour indices `x13`. -/
def out (x1 : (⟨2, ![100000, 256]⟩ : Shape).Idx → EReal) (W : (⟨2, ![512, 256]⟩ : Shape).Idx → EReal)
    (b g be : (⟨1, ![256]⟩ : Shape).Idx → EReal) (x11 : (⟨1, ![16384]⟩ : Shape).Idx → BitVec 32)
    (x13 : (⟨1, ![163840]⟩ : Shape).Idx → BitVec 32) : (⟨2, ![16384, 256]⟩ : Shape).Idx → EReal :=
  fun i => Cert.Spec.row (fun s k => x1 (ix2 (tableRow (x13 (ix1 (Cert.Spec.pos (i 0) s)))) k))
    (fun k => x1 (ix2 (tableRow (x11 (ix1 (i 0)))) k))
    (fun k d => W (ix2 (Cert.Spec.lo k) d)) (fun k d => W (ix2 (Cert.Spec.hi k) d))
    (fun d => b (ix1 d)) (fun d => g (ix1 d)) (fun d => be (ix1 d)) (i 1)

end Cert.Whole

end
-- ==== Proof.IdxRead.lean ====
/-
  The integer index arrays of both programs, read at a position.

  Indexing the 100000-row table with an integer vector first moves a negative index up by 100000 — a compare with 0, an add of 100000
  and a select, each against a broadcast scalar — and then lays the vector out as a column `[n, 1]` for the gather.
  Read at a position these are the word function `Whole.nw` of the vector's word there, and the column's entry `(j, 0)` is
  the vector's entry `j`.
-/
import proofs.«407667_j45320494908016_3_alg».proof.Proof.Whole
import Idealize.ShloMosaic.Lib.ValueIdx
import Idealize.ShloMosaic.Lib.ValueLayout
import Idealize.ShloMosaic.Lib.Pipeline.Value

noncomputable section

namespace Cert.IdxRead

open Idealize.ShloMosaic Idealize.ShloMosaic.ValueIdx

/-- A vector laid out as a column reads, at `(j, 0)`, the vector at `j`. -/
theorem column_apply {α : Type} {n : ℕ} (h : (⟨1, ![n]⟩ : Shape).BroadcastsInDim ⟨2, ![n, 1]⟩ ![0])
    (y : (⟨1, ![n]⟩ : Shape).Idx → α) (j : Fin n) :
    broadcastInDim ⟨2, ![n, 1]⟩ ![0] h y (ix2 j (0 : Fin 1)) = y (ix1 j) := by
  refine broadcastInDim_apply _ h y _ (ix1 j) fun a => ?_
  match a with
  | ⟨0, _⟩ =>
    show j.val = if n = 1 then 0 else j.val
    split
    · have := j.isLt; omega
    · rfl

/-- A scalar broadcast to a vector reads the scalar everywhere. -/
theorem splat_apply {α : Type} {n : ℕ} (h : (⟨0, ![]⟩ : Shape).BroadcastsInDim ⟨1, ![n]⟩ ![])
    (y : (⟨0, ![]⟩ : Shape).Idx → α) (i : (⟨1, ![n]⟩ : Shape).Idx) :
    broadcastInDim ⟨1, ![n]⟩ ![] h y i = y ix0 :=
  broadcastInDim_apply _ h y i ix0 fun a => a.elim0

/-- The normalised index vector at a position is `nw` of the index word there. -/
theorem norm_apply {n : ℕ} (h : (⟨0, ![]⟩ : Shape).BroadcastsInDim ⟨1, ![n]⟩ ![]) (P : IVec ⟨1, ![n]⟩ 32)
    (i : (⟨1, ![n]⟩ : Shape).Idx) :
    select (cmpi .slt P (broadcastInDim ⟨1, ![n]⟩ ![] h (constantI ⟨0, ![]⟩ 32 0#32)))
        (addi P (broadcastInDim ⟨1, ![n]⟩ ![] h (constantI ⟨0, ![]⟩ 32 100000#32))) P i = Cert.Whole.nw (P i) := by
  show Scalar.select (IntOp.cmpi .slt (P i) (broadcastInDim ⟨1, ![n]⟩ ![] h (constantI ⟨0, ![]⟩ 32 0#32) i))
    (IntOp.addi (P i) (broadcastInDim ⟨1, ![n]⟩ ![] h (constantI ⟨0, ![]⟩ 32 100000#32) i)) (P i) = _
  rw [splat_apply, splat_apply]
  rfl

end Cert.IdxRead

end
-- ==== Proof.KernelHost.lean ====
/-
  What the kernel's region finds in its windows' arrays, read at an index.

  The lines of @main before the region build the region's operands from the arguments: the neighbour indices are
  re-ordered neighbour-major (position `16384 s + r` holds `neigh2[10 r + s]`), normalised and used to gather rows of
  `hidden1`, and the gathered `[163840, 256]` array is viewed as `[10, 16384, 256]`; the self rows are gathered by the
  normalised node indices; the weight matrix is cut into its upper and lower halves; the bias, scale and shift become
  `[1, 256]` rows. Each array is read at an index down to an element of an argument: the changes of float format are the
  identity at the ideal values.
-/
import proofs.«407667_j45320494908016_3_alg».proof.Proof.Gen.KernelIdeal.Frame
import proofs.«407667_j45320494908016_3_alg».proof.Proof.IdxRead
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-- The neighbour indices re-ordered neighbour-major. -/
abbrev perm (x13 : IVec S163840 32) : IVec S163840 32 :=
  shapeCast S163840 (transpose S10x16384 [1, 0] (shapeCast S16384x10 x13 shapeCasts_S163840_S16384x10)
    transposes_S16384x10_S10x16384_1_0) shapeCasts_S10x16384_S163840

/-- Position `16384 s + r` of the re-ordered indices holds `neigh2[10 r + s]`. -/
theorem perm_apply (x13 : IVec S163840 32) (s : Fin 10) (r : Fin 16384) :
    perm x13 (ix1 (⟨s.val * 16384 + r.val, by omega⟩ : Fin 163840)) = x13 (ix1 (Cert.Spec.pos r s)) := by
  unfold perm
  refine (shapeCast_apply _ shapeCasts_S10x16384_S163840 _ (ix2 s r) ?_).trans ?_
  · rw [Shape.rowMajor_val_one, Shape.rowMajor_val_two]
    rfl
  refine (transpose_ix2_apply _ transposes_S16384x10_S10x16384_1_0 s r).trans ?_
  refine shapeCast_apply _ shapeCasts_S163840_S16384x10 _ (ix1 (Cert.Spec.pos r s)) ?_
  rw [Shape.rowMajor_val_one, Shape.rowMajor_val_two]
  rfl

/-- The normalised column of start indices the gathers take. -/
abbrev startCol {n : ℕ} (h0 : (⟨0, ![]⟩ : Shape).BroadcastsInDim ⟨1, ![n]⟩ ![])
    (h1 : (⟨1, ![n]⟩ : Shape).BroadcastsInDim ⟨2, ![n, 1]⟩ ![0]) (P : IVec ⟨1, ![n]⟩ 32) : IVec ⟨2, ![n, 1]⟩ 32 :=
  broadcastInDim ⟨2, ![n, 1]⟩ ![0] h1 (select (cmpi .slt P (broadcastInDim ⟨1, ![n]⟩ ![] h0 (constantI ⟨0, ![]⟩ 32 0#32)))
    (addi P (broadcastInDim ⟨1, ![n]⟩ ![] h0 (constantI ⟨0, ![]⟩ 32 100000#32))) P)

theorem startCol_apply {n : ℕ} (h0 : (⟨0, ![]⟩ : Shape).BroadcastsInDim ⟨1, ![n]⟩ ![])
    (h1 : (⟨1, ![n]⟩ : Shape).BroadcastsInDim ⟨2, ![n, 1]⟩ ![0]) (P : IVec ⟨1, ![n]⟩ 32) (j : Fin n) :
    startCol h0 h1 P (ix2 j (0 : Fin 1)) = Cert.Whole.nw (P (ix1 j)) := by
  unfold startCol
  rw [Cert.IdxRead.column_apply, Cert.IdxRead.norm_apply]

/-! ## The arrays as terms of the arguments -/

theorem nbr_eq : (V m c main_call0_v11 : S10x16384x256.Idx → EReal)
    = shapeCast S10x16384x256 (truncf (F := Ideal) .bf16 (Host.gather gather_S100000x256_S163840x1_S163840x256_1_0_n_n_0_1_1256
        (m ((c : Thread nD τ).loc main_arg1))
        (startCol bcast_S_S163840 bcast_S163840_S163840x1_0 (perm (m ((c : Thread nD τ).loc main_arg13))))) bitsLt_bf16_f32)
        shapeCasts_S163840x256_S10x16384x256 := by
  show StableHlo.after hostOps0 (fun b => m (c, b)) (Proc.devRef .tc main_call0_v11) = _
  after_results
  rfl

theorem self_eq : (V m c main_call0_v19 : S16384x256.Idx → EReal)
    = truncf (F := Ideal) .bf16 (Host.gather gather_S100000x256_S16384x1_S16384x256_1_0_n_n_0_1_1256
        (m ((c : Thread nD τ).loc main_arg1))
        (startCol bcast_S_S16384 bcast_S16384_S16384x1_0 (m ((c : Thread nD τ).loc main_arg11)))) bitsLt_bf16_f32 := by
  show StableHlo.after hostOps0 (fun b => m (c, b)) (Proc.devRef .tc main_call0_v19) = _
  after_results
  rfl

theorem wtop_eq : (V m c main_call0_v21 : S256x256.Idx → EReal)
    = truncf (F := Ideal) .bf16 (extractStridedSlice S256x256 ![0, 0] (m ((c : Thread nD τ).loc main_arg7)) slices_S512x256_S256x256_0_0)
        bitsLt_bf16_f32 := by
  show StableHlo.after hostOps0 (fun b => m (c, b)) (Proc.devRef .tc main_call0_v21) = _
  after_results
  rfl

theorem wbot_eq : (V m c main_call0_v23 : S256x256.Idx → EReal)
    = truncf (F := Ideal) .bf16 (extractStridedSlice S256x256 ![256, 0] (m ((c : Thread nD τ).loc main_arg7)) slices_S512x256_S256x256_256_0)
        bitsLt_bf16_f32 := by
  show StableHlo.after hostOps0 (fun b => m (c, b)) (Proc.devRef .tc main_call0_v23) = _
  after_results
  rfl

theorem bias_eq : (V m c main_call0_v24 : S1x256.Idx → EReal)
    = shapeCast S1x256 (m ((c : Thread nD τ).loc main_arg8)) shapeCasts_S256_S1x256 := by
  show StableHlo.after hostOps0 (fun b => m (c, b)) (Proc.devRef .tc main_call0_v24) = _
  after_results
  rfl

theorem scale_eq : (V m c main_call0_v25 : S1x256.Idx → EReal)
    = shapeCast S1x256 (m ((c : Thread nD τ).loc main_arg9)) shapeCasts_S256_S1x256 := by
  show StableHlo.after hostOps0 (fun b => m (c, b)) (Proc.devRef .tc main_call0_v25) = _
  after_results
  rfl

theorem shift_eq : (V m c main_call0_v26 : S1x256.Idx → EReal)
    = shapeCast S1x256 (m ((c : Thread nD τ).loc main_arg10)) shapeCasts_S256_S1x256 := by
  show StableHlo.after hostOps0 (fun b => m (c, b)) (Proc.devRef .tc main_call0_v26) = _
  after_results
  rfl

/-! ## The arrays at an index -/

/-- Neighbour slab `s`, batch row `r`: the table row `neigh2[10 r + s]` names. -/
theorem nbr_at (s : Fin 10) (r : Fin 16384) (k : Fin 256) :
    (V m c main_call0_v11 : S10x16384x256.Idx → EReal) (ix3 s r k)
      = (m ((c : Thread nD τ).loc main_arg1) : S100000x256.Idx → EReal)
          (ix2 (Cert.Whole.tableRow ((m ((c : Thread nD τ).loc main_arg13) : S163840.Idx → BitVec 32) (ix1 (Cert.Spec.pos r s)))) k) := by
  rw [nbr_eq]
  refine (shapeCast_apply _ shapeCasts_S163840x256_S10x16384x256 (ix3 s r k)
    (ix2 (⟨s.val * 16384 + r.val, by omega⟩ : Fin 163840) k) ?_).trans ?_
  · rw [Shape.rowMajor_val_two, Shape.rowMajor_val_three]
    rfl
  show Host.gather gather_S100000x256_S163840x1_S163840x256_1_0_n_n_0_1_1256 _ _ (ix2 _ k) = _
  rw [Cert.Rows.gather_rows_apply (by decide) _ rfl rfl rfl rfl rfl, startCol_apply, perm_apply]
  rfl

/-- Batch row `r`'s self row: the table row `node_batch[r]` names. -/
theorem self_at (r : Fin 16384) (k : Fin 256) :
    (V m c main_call0_v19 : S16384x256.Idx → EReal) (ix2 r k)
      = (m ((c : Thread nD τ).loc main_arg1) : S100000x256.Idx → EReal)
          (ix2 (Cert.Whole.tableRow ((m ((c : Thread nD τ).loc main_arg11) : S16384.Idx → BitVec 32) (ix1 r))) k) := by
  rw [self_eq]
  show Host.gather gather_S100000x256_S16384x1_S16384x256_1_0_n_n_0_1_1256 _ _ (ix2 r k) = _
  rw [Cert.Rows.gather_rows_apply (by decide) _ rfl rfl rfl rfl rfl, startCol_apply]
  rfl

/-- The upper half of the weight matrix … -/
theorem wtop_at (k d : Fin 256) :
    (V m c main_call0_v21 : S256x256.Idx → EReal) (ix2 k d)
      = (m ((c : Thread nD τ).loc main_arg7) : S512x256.Idx → EReal) (ix2 (Cert.Spec.lo k) d) := by
  rw [wtop_eq]
  show extractStridedSlice S256x256 ![0, 0] (m ((c : Thread nD τ).loc main_arg7) : S512x256.Idx → EReal)
    slices_S512x256_S256x256_0_0 (ix2 k d) = _
  refine extractStridedSlice_apply _ _ _ _ (ix2 (Cert.Spec.lo k) d) fun a => ?_
  match a with
  | ⟨0, _⟩ => show k.val = 0 + k.val; omega
  | ⟨1, _⟩ => show d.val = 0 + d.val; omega

/-- … and its lower half. -/
theorem wbot_at (k d : Fin 256) :
    (V m c main_call0_v23 : S256x256.Idx → EReal) (ix2 k d)
      = (m ((c : Thread nD τ).loc main_arg7) : S512x256.Idx → EReal) (ix2 (Cert.Spec.hi k) d) := by
  rw [wbot_eq]
  show extractStridedSlice S256x256 ![256, 0] (m ((c : Thread nD τ).loc main_arg7) : S512x256.Idx → EReal)
    slices_S512x256_S256x256_256_0 (ix2 k d) = _
  refine extractStridedSlice_apply _ _ _ _ (ix2 (Cert.Spec.hi k) d) fun a => ?_
  match a with
  | ⟨0, _⟩ => show 256 + k.val = 256 + k.val; rfl
  | ⟨1, _⟩ => show d.val = 0 + d.val; omega

/-- The bias, the scale and the shift as `[1, 256]` rows. -/
theorem bias_at (d : Fin 256) :
    (V m c main_call0_v24 : S1x256.Idx → EReal) (ix2 (0 : Fin 1) d)
      = (m ((c : Thread nD τ).loc main_arg8) : S256.Idx → EReal) (ix1 d) := by
  rw [bias_eq]; exact shapeCast_a_1a_apply _ _ _ _
theorem scale_at (d : Fin 256) :
    (V m c main_call0_v25 : S1x256.Idx → EReal) (ix2 (0 : Fin 1) d)
      = (m ((c : Thread nD τ).loc main_arg9) : S256.Idx → EReal) (ix1 d) := by
  rw [scale_eq]; exact shapeCast_a_1a_apply _ _ _ _
theorem shift_at (d : Fin 256) :
    (V m c main_call0_v26 : S1x256.Idx → EReal) (ix2 (0 : Fin 1) d)
      = (m ((c : Thread nD τ).loc main_arg10) : S256.Idx → EReal) (ix1 d) := by
  rw [shift_eq]; exact shapeCast_a_1a_apply _ _ _ _

end Cert.KernelIdeal.Host

end
-- ==== Proof.KernelValue.lean ====
/-
  The kernel's output array after the region, and the program's two results.

  The grid has 32 points; point `t` handles batch rows `512 t … 512 t + 511`: its neighbour block is slabs `0 … 9` of those
  rows, its self block those rows, the weight halves and the three `[1, 256]` rows whole, and it writes back those rows of
  the output. What point `t` writes back is block `t` of ONE function of the arguments, `Whole.out` (the body's arithmetic
  is KernelBody.lean's, the arrays' contents KernelHost.lean's); the 32 blocks cover the output array, so after the
  region the array IS that function. The lines after the region scatter the output's rows into `hidden2`.
-/
import proofs.«407667_j45320494908016_3_alg».proof.Proof.Gen.KernelIdeal.Frame
import proofs.«407667_j45320494908016_3_alg».proof.Proof.KernelBody
import proofs.«407667_j45320494908016_3_alg».proof.Proof.KernelHost
import proofs.«407667_j45320494908016_3_alg».proof.Proof.Whole
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
  Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The layer's output, of this memory's argument arrays on core `c`. -/
abbrev outOf (c : Dev nD) : S16384x256.Idx → EReal :=
  Cert.Whole.out (m ((c : Thread nD τ).loc main_arg1)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg13))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the neighbour, self and output windows move with the point along the batch
    axis; the others stay at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Batch row `512 t + p`: row `p` of point `t`'s blocks. -/
def brow (t : Fin cfg0.N) (p : Fin 512) : Fin 16384 :=
  ⟨t.val * 512 + p.val, by have ht : t.val < 32 := lt_of_lt_of_eq t.isLt N_0; omega⟩

/-! ## The blocks of a point, read at an element -/

/-- Point `t`'s blocks, typed by their literal shapes. -/
abbrev b0 (c : Dev nD) (t : Fin cfg0.N) : FVec Ideal S10x512x256 .bf16 := iblk m c 0 t
abbrev b1 (c : Dev nD) (t : Fin cfg0.N) : FVec Ideal S512x256 .bf16 := iblk m c 1 t
abbrev b2 (c : Dev nD) (t : Fin cfg0.N) : FVec Ideal S256x256 .bf16 := iblk m c 2 t
abbrev b3 (c : Dev nD) (t : Fin cfg0.N) : FVec Ideal S256x256 .bf16 := iblk m c 3 t
abbrev b4 (c : Dev nD) (t : Fin cfg0.N) : FVec Ideal S1x256 .f32 := iblk m c 4 t
abbrev b5 (c : Dev nD) (t : Fin cfg0.N) : FVec Ideal S1x256 .f32 := iblk m c 5 t
abbrev b6 (c : Dev nD) (t : Fin cfg0.N) : FVec Ideal S1x256 .f32 := iblk m c 6 t

/-- The neighbour block's row `p` is batch row `512 t + p`. -/
theorem b0_at (c : Dev nD) (t : Fin cfg0.N) (s : Fin 10) (p : Fin 512) (k : Fin 256) :
    b0 m c t (ix3 s p k) = (m ((c : Thread nD τ).loc main_arg1) : S100000x256.Idx → EReal)
      (ix2 (Cert.Whole.tableRow ((m ((c : Thread nD τ).loc main_arg13) : S163840.Idx → BitVec 32)
        (ix1 (Cert.Spec.pos (brow t p) s)))) k) := by
  obtain ⟨e0, e1, e2, -⟩ := idx_facts t
  show (V m c main_call0_v11 : S10x16384x256.Idx → EReal) (((cfg0.win 0).blk t).view.emb (ix3 s p k)) = _
  have h : ((cfg0.win 0).blk t).view.emb (ix3 s p k) = ix3 s (brow t p) k := by
    funext a; apply Fin.ext
    match a with
    | ⟨0, _⟩ => show win0_0.index t (0 : Fin 3) * 10 + 1 * s.val = s.val; omega
    | ⟨1, _⟩ => show win0_0.index t (1 : Fin 3) * 512 + 1 * p.val = t.val * 512 + p.val; omega
    | ⟨2, _⟩ => show win0_0.index t (2 : Fin 3) * 256 + 1 * k.val = k.val; omega
  rw [h]
  exact Cert.KernelIdeal.Host.nbr_at m c s (brow t p) k

/-- The self block's row `p` is batch row `512 t + p`. -/
theorem b1_at (c : Dev nD) (t : Fin cfg0.N) (p : Fin 512) (k : Fin 256) :
    b1 m c t (ix2 p k) = (m ((c : Thread nD τ).loc main_arg1) : S100000x256.Idx → EReal)
      (ix2 (Cert.Whole.tableRow ((m ((c : Thread nD τ).loc main_arg11) : S16384.Idx → BitVec 32) (ix1 (brow t p)))) k) := by
  obtain ⟨-, -, -, e3, e4, -⟩ := idx_facts t
  show (V m c main_call0_v19 : S16384x256.Idx → EReal) (((cfg0.win 1).blk t).view.emb (ix2 p k)) = _
  have h : ((cfg0.win 1).blk t).view.emb (ix2 p k) = ix2 (brow t p) k := by
    funext a; apply Fin.ext
    match a with
    | ⟨0, _⟩ => show win0_1.index t (0 : Fin 2) * 512 + 1 * p.val = t.val * 512 + p.val; omega
    | ⟨1, _⟩ => show win0_1.index t (1 : Fin 2) * 256 + 1 * k.val = k.val; omega
  rw [h]
  exact Cert.KernelIdeal.Host.self_at m c (brow t p) k

/-- The weight halves and the three rows are whole at every point. -/
theorem b2_at (c : Dev nD) (t : Fin cfg0.N) (k d : Fin 256) :
    b2 m c t (ix2 k d) = (m ((c : Thread nD τ).loc main_arg7) : S512x256.Idx → EReal) (ix2 (Cert.Spec.lo k) d) := by
  obtain ⟨-, -, -, -, -, e5, e6, -⟩ := idx_facts t
  show (V m c main_call0_v21 : S256x256.Idx → EReal) (((cfg0.win 2).blk t).view.emb (ix2 k d)) = _
  have h : ((cfg0.win 2).blk t).view.emb (ix2 k d) = ix2 k d := by
    funext a; apply Fin.ext
    match a with
    | ⟨0, _⟩ => show win0_2.index t (0 : Fin 2) * 256 + 1 * k.val = k.val; omega
    | ⟨1, _⟩ => show win0_2.index t (1 : Fin 2) * 256 + 1 * d.val = d.val; omega
  rw [h]
  exact Cert.KernelIdeal.Host.wtop_at m c k d
theorem b3_at (c : Dev nD) (t : Fin cfg0.N) (k d : Fin 256) :
    b3 m c t (ix2 k d) = (m ((c : Thread nD τ).loc main_arg7) : S512x256.Idx → EReal) (ix2 (Cert.Spec.hi k) d) := by
  obtain ⟨-, -, -, -, -, -, -, e7, e8, -⟩ := idx_facts t
  show (V m c main_call0_v23 : S256x256.Idx → EReal) (((cfg0.win 3).blk t).view.emb (ix2 k d)) = _
  have h : ((cfg0.win 3).blk t).view.emb (ix2 k d) = ix2 k d := by
    funext a; apply Fin.ext
    match a with
    | ⟨0, _⟩ => show win0_3.index t (0 : Fin 2) * 256 + 1 * k.val = k.val; omega
    | ⟨1, _⟩ => show win0_3.index t (1 : Fin 2) * 256 + 1 * d.val = d.val; omega
  rw [h]
  exact Cert.KernelIdeal.Host.wbot_at m c k d
theorem b4_at (c : Dev nD) (t : Fin cfg0.N) (d : Fin 256) :
    b4 m c t (ix2 (0 : Fin 1) d) = (m ((c : Thread nD τ).loc main_arg8) : S256.Idx → EReal) (ix1 d) := by
  obtain ⟨-, -, -, -, -, -, -, -, -, e9, e10, -⟩ := idx_facts t
  show (V m c main_call0_v24 : S1x256.Idx → EReal) (((cfg0.win 4).blk t).view.emb (ix2 (0 : Fin 1) d)) = _
  have h : ((cfg0.win 4).blk t).view.emb (ix2 (0 : Fin 1) d) = ix2 (0 : Fin 1) d := by
    funext a; apply Fin.ext
    match a with
    | ⟨0, _⟩ => show win0_4.index t (0 : Fin 2) * 1 + 1 * 0 = 0; omega
    | ⟨1, _⟩ => show win0_4.index t (1 : Fin 2) * 256 + 1 * d.val = d.val; omega
  rw [h]
  exact Cert.KernelIdeal.Host.bias_at m c d
theorem b5_at (c : Dev nD) (t : Fin cfg0.N) (d : Fin 256) :
    b5 m c t (ix2 (0 : Fin 1) d) = (m ((c : Thread nD τ).loc main_arg9) : S256.Idx → EReal) (ix1 d) := by
  obtain ⟨-, -, -, -, -, -, -, -, -, -, -, e11, e12, -⟩ := idx_facts t
  show (V m c main_call0_v25 : S1x256.Idx → EReal) (((cfg0.win 5).blk t).view.emb (ix2 (0 : Fin 1) d)) = _
  have h : ((cfg0.win 5).blk t).view.emb (ix2 (0 : Fin 1) d) = ix2 (0 : Fin 1) d := by
    funext a; apply Fin.ext
    match a with
    | ⟨0, _⟩ => show win0_5.index t (0 : Fin 2) * 1 + 1 * 0 = 0; omega
    | ⟨1, _⟩ => show win0_5.index t (1 : Fin 2) * 256 + 1 * d.val = d.val; omega
  rw [h]
  exact Cert.KernelIdeal.Host.scale_at m c d
theorem b6_at (c : Dev nD) (t : Fin cfg0.N) (d : Fin 256) :
    b6 m c t (ix2 (0 : Fin 1) d) = (m ((c : Thread nD τ).loc main_arg10) : S256.Idx → EReal) (ix1 d) := by
  obtain ⟨-, -, -, -, -, -, -, -, -, -, -, -, -, e13, e14, -⟩ := idx_facts t
  show (V m c main_call0_v26 : S1x256.Idx → EReal) (((cfg0.win 6).blk t).view.emb (ix2 (0 : Fin 1) d)) = _
  have h : ((cfg0.win 6).blk t).view.emb (ix2 (0 : Fin 1) d) = ix2 (0 : Fin 1) d := by
    funext a; apply Fin.ext
    match a with
    | ⟨0, _⟩ => show win0_6.index t (0 : Fin 2) * 1 + 1 * 0 = 0; omega
    | ⟨1, _⟩ => show win0_6.index t (1 : Fin 2) * 256 + 1 * d.val = d.val; omega
  rw [h]
  exact Cert.KernelIdeal.Host.shift_at m c d

/-- Row `p` of the output's block `t` is batch row `512 t + p`. -/
theorem out_emb (t : Fin cfg0.N) (p : Fin 512) (q : Fin 256) :
    ((cfg0.win 7).blk t).view.emb (ix2 p q) = ix2 (brow t p) q := by
  obtain ⟨-, -, -, -, -, -, -, -, -, -, -, -, -, -, -, e15, e16⟩ := idx_facts t
  funext a; apply Fin.ext
  match a with
  | ⟨0, _⟩ => show win0_7.index t (0 : Fin 2) * 512 + 1 * p.val = t.val * 512 + p.val; omega
  | ⟨1, _⟩ => show win0_7.index t (1 : Fin 2) * 256 + 1 * q.val = q.val; omega

/-- WHAT POINT `t` WRITES BACK is block `t` of the layer's output. -/
theorem flushed_eq (c : Dev nD) (t : Fin cfg0.N) :
    (dats m 0 c).flushed 7 t = ((cfg0.win 7).blk t).view.read (Elt Ideal) (outOf m c) := by
  show (cfg0.win 7).cut (grid0.coords t) ((dats m 0 c).after 7 t) = _
  rw [after0_7]
  unfold out0_7
  rw [View.canon_unit_zero hz2]
  simp only [View.ld_unit_zero (S := S512x256) hz2, View.ld_unit_zero (S := S10x512x256) hz3,
    View.ld_unit_zero (S := S256x256) hz2, View.ld_unit_zero (S := S1x256) hz2]
  funext j
  obtain ⟨p, q, rfl⟩ : ∃ (p : Fin 512) (q : Fin 256), j = ix2 p q := ⟨j 0, j 1, eq_ix2 j⟩
  show k0_pay1 (F := Ideal) (k0_pay2 (F := Ideal) (b0 m c t) (b1 m c t) (b2 m c t) (b3 m c t) (b4 m c t))
      (k0_pay3 (F := Ideal) (b0 m c t) (b1 m c t) (b2 m c t) (b3 m c t) (b4 m c t)) (b5 m c t) (b6 m c t) (ix2 p q)
    = outOf m c (((cfg0.win 7).blk t).view.emb (ix2 p q))
  refine (Cert.KernelIdeal.Body.body_at (b0 m c t) (b1 m c t) (b2 m c t) (b3 m c t) (b4 m c t) (b5 m c t) (b6 m c t) p q).trans ?_
  rw [out_emb]
  simp only [b0_at, b1_at, b2_at, b3_at, b4_at, b5_at, b6_at]
  rfl

/-- An index of the output array is in point `t`'s block iff each coordinate is in the block's range. -/
theorem mem_blk (t : Fin cfg0.N) (i : S16384x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v0_0).slice (win0_7.rect t)).set ↔ _
  rw [View.set_slice_whole, Rect.mem_set_unit]
  exact Iff.rfl

/-- Every index of the output array is in the block of the point its row falls in. -/
theorem cover (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  let t : Fin cfg0.N := ⟨(i 0).val / 512, by rw [show cfg0.N = 32 from N_0]; omega⟩
  obtain ⟨-, -, -, -, -, -, -, -, -, -, -, -, -, -, -, e15, e16⟩ := idx_facts t
  have ht : t.val = (i 0).val / 512 := rfl
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 256 ≤ (i 1).val ∧ (i 1).val < win0_7.index t (1 : Fin 2) * 256 + 256
    omega

/-- THE OUTPUT ARRAY after the region is the layer's output. -/
theorem final (c : Dev nD) : (dats m 0 c).arrAt 7 cfg0.N = outOf m c :=
  (dats m 0 c).arrAt_eq_of_cover 7 (outOf m c) (fun t _ => flushed_eq m c t) cover

/-- The core's buffers as the region leaves them: the pipeline's arrays at their final contents, the rest as at entry. -/
abbrev exitVal (c : Dev nD) : Valuation τ sig (Elt Ideal) :=
  Pipeline.withArrays (cfgs 0).spec c (V0 m c) fun w => (dats m 0 c).arrAt w (cfgs 0).N

theorem exit_arg2 (c : Dev nD) : exitVal m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)
theorem exit_arg11 (c : Dev nD) : exitVal m c (Proc.devRef .tc main_arg11) = m ((c : Thread nD τ).loc main_arg11) :=
  (Pipeline.withArrays_of_ne _ c (V0 m c) _ main_arg11 (by exact (by decide : ∀ w, Pipeline.arrRef spec0 w ≠ main_arg11))).trans
    (V_main_arg11 m c)
theorem exit_out (c : Dev nD) : exitVal m c (Proc.devRef .tc main_v0_0) = outOf m c :=
  (Pipeline.withArrays_arr spec0 winFacts0.arr_inj c (V0 m c) (fun w => (dats m 0 c).arrAt w (cfgs 0).N) 7).trans (final m c)

/-- The table `hidden2` with the layer's output scattered in at the normalised node indices. -/
abbrev scatteredOf (c : Dev nD) : S100000x256.Idx → EReal :=
  Host.scatter scatter_S100000x256_S16384x1_S16384x256_1_0_0_1 (fun _ b => b) (m ((c : Thread nD τ).loc main_arg2))
    (Cert.KernelIdeal.Host.startCol bcast_S_S16384 bcast_S16384_S16384x1_0 (m ((c : Thread nD τ).loc main_arg11))) (outOf m c)

/-- The lines after the region, from any contents of the core's buffers: the second result is `hidden2` with the output
    array's rows scattered in at the normalised node indices. -/
theorem tail_of (Vx : Valuation τ sig (Elt Ideal)) :
    StableHlo.after hostOps1 Vx (Proc.devRef .tc main_v0_1)
      = Host.scatter scatter_S100000x256_S16384x1_S16384x256_1_0_0_1 (fun _ b => b)
          (Vx (Proc.devRef .tc main_arg2) : S100000x256.Idx → EReal)
          (Cert.KernelIdeal.Host.startCol bcast_S_S16384 bcast_S16384_S16384x1_0
            (Vx (Proc.devRef .tc main_arg11) : S16384.Idx → BitVec 32))
          (Vx (Proc.devRef .tc main_v0_0) : S16384x256.Idx → EReal) := by
  after_results
  refine (cast_eq _ _).trans ?_
  rfl

/-- THE SECOND RESULT: what the lines after the region leave in it. -/
theorem tail_eq (c : Dev nD) :
    Pipeline.afterTail₀ cfgs (dats m) 0 (V0 m) [hostOps1] c main_v0_1 = scatteredOf m c := by
  unfold Pipeline.afterTail₀
  show StableHlo.after hostOps1 (exitVal m c) (Proc.devRef .tc main_v0_1) = _
  rw [tail_of, exit_arg2, exit_arg11, exit_out]
  rfl

/-! ## The run, read -/

/-- Every weakly fair execution of the program ends with the first result at the layer's output, the second at the
    table with those rows scattered in, and the arguments unchanged. -/
theorem run : θ_run defs (onTc (τ := τ) (main (F := Ideal))) ⟨m, fun _ => 0, ρ⟩ fun r => ∀ c : Dev nD,
      r.2.mem ((c.tc : Thread nD τ).loc main_v0_0) = outOf m c
      ∧ r.2.mem ((c.tc : Thread nD τ).loc main_v0_1) = scatteredOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 7).trans (final m c),
      ((h c).2 main_v0_1 (Pipeline.mem_restRefs_of main_v0_1 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.KValue

end
-- ==== Proof.RefValue.lean ====
/-
  The reference's second layer, read at an index: its result is the function `Whole.out` of the arguments.

  The reference gathers the 163840 neighbour rows in their given order, adds gathered row `p` into batch row `p / 10` (a
  scatter with addition into zeros, the row numbers an iota repeated ten times), and divides by 10: at `(r, k)` that is the
  mean of the ten rows at positions `10 r + s`. It concatenates the mean with the self row and multiplies by the whole
  weight matrix: a sum over 512 indices, split into its two halves. The rest — bias, rectifier, the two means over the
  256 features, the reciprocal square root, scale and shift — is the row formula's own sequence of operations.
-/
import proofs.«407667_j45320494908016_3_alg».proof.Proof.Gen.ReferenceIdeal.Read
import proofs.«407667_j45320494908016_3_alg».proof.Proof.Whole
import proofs.«407667_j45320494908016_3_alg».proof.Proof.IdxRead
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x1 : (⟨S100000x256, .f32⟩ : BufTy).Contents (Elt Ideal)) (x7 : (⟨S512x256, .f32⟩ : BufTy).Contents (Elt Ideal))
  (x8 x9 x10 : (⟨S256, .f32⟩ : BufTy).Contents (Elt Ideal)) (x11 : (⟨S16384, .i32⟩ : BufTy).Contents (Elt Ideal))
  (x13 : (⟨S163840, .i32⟩ : BufTy).Contents (Elt Ideal))

/-- A small natural number as a 32-bit word, read signed, is itself. -/
theorem toInt_ofNat_small (n : Nat) (h : n < 2147483648) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Gathered neighbour row `p` is the table row the `p`-th neighbour index names. -/
theorem gathered_at (p : Fin 163840) (k : Fin 256) :
    val_main_v58 (F := Ideal) x1 x13 (ix2 p k) = x1 (ix2 (Cert.Whole.tableRow (x13 (ix1 p))) k) := by
  unfold val_main_v58 val_main_v57 val_main_v56 val_main_v55 val_main_v54 val_main_v53 val_main_v52 val_main_c_9 val_main_c_10
  rw [Cert.Rows.gather_rows_apply (by decide) _ rfl rfl rfl rfl rfl, Cert.IdxRead.column_apply, Cert.IdxRead.norm_apply]
  rfl

/-- The self rows likewise. -/
theorem self_at (r : Fin 16384) (k : Fin 256) :
    val_main_v73 (F := Ideal) x1 x11 (ix2 r k) = x1 (ix2 (Cert.Whole.tableRow (x11 (ix1 r))) k) := by
  unfold val_main_v73 val_main_v72 val_main_v71 val_main_v70 val_main_v69 val_main_v68 val_main_v67 val_main_c_13 val_main_c_14
  rw [Cert.Rows.gather_rows_apply (by decide) _ rfl rfl rfl rfl rfl, Cert.IdxRead.column_apply, Cert.IdxRead.norm_apply]
  rfl

/-- The row number of gathered row `p`: its position divided by 10. -/
theorem segId_at (p : Fin 163840) : val_main_v63 (F := Ideal) (ix2 p (0 : Fin 1)) = BitVec.ofNat 32 (p.val / 10) := by
  rw [val_main_v63_apply, val_main_v61_apply, val_main_v60_apply, val_main_v59_apply]

/-- The neighbour rows of batch row `r`. -/
abbrev nbrs (r : Fin 16384) (s : Fin 10) (k : Fin 256) : EReal :=
  x1 (ix2 (Cert.Whole.tableRow (x13 (ix1 (Cert.Spec.pos r s)))) k)

/-- The mean of the neighbour rows: the scatter with addition read at `(r, k)`, divided by 10. -/
theorem mean_at (r : Fin 16384) (k : Fin 256) :
    val_main_v66 (F := Ideal) x1 x13 (ix2 r k) = Cert.Spec.agg (nbrs x1 x13 r) k := by
  rw [val_main_v66_apply, val_main_v65_apply, val_main_cst_12_apply]
  unfold val_main_v64
  simp only [Host.scatterAdd, Ideal.hostScatterAdd_def, Ideal.hostDivf_def, Ideal.ofBits_def]
  rw [Cert.Rows.scatterAdd_rows_apply _ rfl rfl rfl rfl, val_main_v62_apply, val_main_cst_11_apply]
  have hf : (Finset.univ.filter fun p : Fin 163840 => (val_main_v63 (F := Ideal) (ix2 p (0 : Fin 1))).toInt = (r.val : Int))
      = Finset.univ.filter fun p : Fin 163840 => p.val / 10 = r.val := by
    refine Finset.filter_congr fun p _ => ?_
    rw [segId_at, toInt_ofNat_small _ (by have := p.isLt; omega)]
    exact Int.natCast_inj
  rw [hf, Cert.Spec.sum_segment (fun p => val_main_v58 (F := Ideal) x1 x13 (ix2 p k)) r]
  simp only [gathered_at, Ideal.ofBits_def, Ideal.ofBits_zero_f32, zero_add]
  rfl

/-- The self row of batch row `r`. -/
abbrev selfRow (r : Fin 16384) (k : Fin 256) : EReal := x1 (ix2 (Cert.Whole.tableRow (x11 (ix1 r))) k)

/-- The concatenated row at a column of its first half is the neighbour mean … -/
theorem cat_lo (r : Fin 16384) (d k : Fin 256) :
    val_main_v74 (F := Ideal) x1 x11 x13 (lidx_main_v75 (ix2 r d) (Cert.Spec.lo k)) = Cert.Spec.agg (nbrs x1 x13 r) k := by
  unfold val_main_v74
  refine (concatenate_pair_apply_left 1 _ _ concatenates_S16384x256_S16384x256_S16384x512_d1 _ rfl (ix2 r k) fun b => ?_).trans
    (mean_at x1 x13 r k)
  match b with
  | ⟨0, _⟩ => rfl
  | ⟨1, _⟩ => rfl

/-- … and at a column of its second half the self row. -/
theorem cat_hi (r : Fin 16384) (d k : Fin 256) :
    val_main_v74 (F := Ideal) x1 x11 x13 (lidx_main_v75 (ix2 r d) (Cert.Spec.hi k)) = selfRow x1 x11 r k := by
  unfold val_main_v74
  refine (concatenate_pair_apply_right 1 _ _ concatenates_S16384x256_S16384x256_S16384x512_d1 _ rfl rfl (ix2 r k)
    (fun b hb => ?_) ?_).trans (self_at x1 x11 r k)
  · match b with
    | ⟨0, _⟩ => rfl
    | ⟨1, _⟩ => exact absurd rfl hb
  · show k.val + 256 = 256 + k.val
    omega

/-- The linear layer before the bias: the 512-long product, as its two halves. -/
theorem lin_at (r : Fin 16384) (d : Fin 256) :
    val_main_v75 (F := Ideal) x1 x7 x11 x13 (ix2 r d)
      = (∑ k : Fin 256, Cert.Spec.agg (nbrs x1 x13 r) k * x7 (ix2 (Cert.Spec.lo k) d))
        + ∑ k : Fin 256, selfRow x1 x11 r k * x7 (ix2 (Cert.Spec.hi k) d) := by
  rw [val_main_v75_apply, Cert.Spec.sum_halves]
  refine congrArg₂ (· + ·) ?_ ?_
  · refine Finset.sum_congr rfl fun k _ => ?_
    have e : ridx_main_v75 (ix2 r d) (Cert.Spec.lo k) = ix2 (Cert.Spec.lo k) d :=
      funext fun a => Fin.ext (by match a with | ⟨0, _⟩ => rfl | ⟨1, _⟩ => rfl)
    rw [cat_lo, e]
  · refine Finset.sum_congr rfl fun k _ => ?_
    have e : ridx_main_v75 (ix2 r d) (Cert.Spec.hi k) = ix2 (Cert.Spec.hi k) d :=
      funext fun a => Fin.ext (by match a with | ⟨0, _⟩ => rfl | ⟨1, _⟩ => rfl)
    rw [cat_hi, e]

/-- Batch row `r` after the linear layer and the rectifier. -/
abbrev actR (r : Fin 16384) (k : Fin 256) : EReal :=
  max (Cert.Spec.pre (Cert.Spec.agg (nbrs x1 x13 r)) (selfRow x1 x11 r) (fun k' d => x7 (ix2 (Cert.Spec.lo k') d))
    (fun k' d => x7 (ix2 (Cert.Spec.hi k') d)) (fun d => x8 (ix1 d)) k) 0

theorem act_at (r : Fin 16384) (k : Fin 256) :
    val_main_v79 (F := Ideal) x1 x7 x8 x11 x13 (ix2 r k) = actR x1 x7 x8 x11 x13 r k := by
  rw [val_main_v79_apply, val_main_v78_apply, lin_at, val_main_v77_apply, val_main_v76_apply, val_main_call1_v0_apply,
    val_main_call1_cst_apply]
  have e : idx_main_v76 (idx_main_v77 (ix2 r k)) = ix1 k := funext fun a => Fin.ext (by match a with | ⟨0, _⟩ => rfl)
  rw [e]
  simp only [Ideal.maximumf_def, Ideal.addf_def, Ideal.ofBits_def, Ideal.ofBits_zero_f32, Cert.Spec.pre]
  rfl

/-- The row's mean. -/
theorem mean_row (r : Fin 16384) :
    val_main_v83 (F := Ideal) x1 x7 x8 x11 x13 (ix2 r (0 : Fin 1)) = Cert.Spec.mean256 (actR x1 x7 x8 x11 x13 r) := by
  rw [val_main_v83_apply, val_main_v81_apply, val_main_v80_apply, val_main_v82_apply, val_main_cst_16_apply,
    val_main_cst_15_apply]
  have e : ∀ k, idx_main_v80 (idx_main_v81 (ix2 r (0 : Fin 1))) k = ix2 r k := fun k =>
    funext fun a => Fin.ext (by match a with | ⟨0, _⟩ => rfl | ⟨1, _⟩ => rfl)
  simp only [e, act_at, Ideal.hostDivf_def, Ideal.ofBits_def, Ideal.ofBits_zero_f32, zero_add, Cert.Spec.mean256]

/-- The activations less the row's mean (the reference forms this difference twice). -/
theorem diff_at (r : Fin 16384) (k : Fin 256) :
    val_main_v85 (F := Ideal) x1 x7 x8 x11 x13 (ix2 r k)
      = actR x1 x7 x8 x11 x13 r k - Cert.Spec.mean256 (actR x1 x7 x8 x11 x13 r) := by
  rw [val_main_v85_apply, val_main_v84_apply, act_at]
  have e : idx_main_v84 (ix2 r k) = ix2 r (0 : Fin 1) :=
    funext fun a => Fin.ext (by match a with | ⟨0, _⟩ => rfl | ⟨1, _⟩ => rfl)
  rw [e, mean_row]
  rfl
theorem diff_at' (r : Fin 16384) (k : Fin 256) :
    val_main_v92 (F := Ideal) x1 x7 x8 x11 x13 (ix2 r k)
      = actR x1 x7 x8 x11 x13 r k - Cert.Spec.mean256 (actR x1 x7 x8 x11 x13 r) := by
  rw [val_main_v92_apply, val_main_v91_apply, act_at]
  have e : idx_main_v91 (ix2 r k) = ix2 r (0 : Fin 1) :=
    funext fun a => Fin.ext (by match a with | ⟨0, _⟩ => rfl | ⟨1, _⟩ => rfl)
  rw [e, mean_row]
  rfl

/-- The reciprocal square root of the row's variance plus `eps`. -/
theorem inv_at (r : Fin 16384) :
    val_main_v98 (F := Ideal) x1 x7 x8 x11 x13 (ix2 r (0 : Fin 1))
      = Ideal.rsqrt (Cert.Spec.mean256 (fun k => (actR x1 x7 x8 x11 x13 r k - Cert.Spec.mean256 (actR x1 x7 x8 x11 x13 r))
          * (actR x1 x7 x8 x11 x13 r k - Cert.Spec.mean256 (actR x1 x7 x8 x11 x13 r))) + Cert.Spec.eps) := by
  rw [val_main_v98_apply, val_main_v97_apply, val_main_v90_apply, val_main_v88_apply, val_main_v87_apply, val_main_v89_apply,
    val_main_v96_apply, val_main_cst_18_apply, val_main_cst_19_apply, val_main_cst_17_apply]
  have e : ∀ k, idx_main_v87 (idx_main_v88 (ix2 r (0 : Fin 1))) k = ix2 r k := fun k =>
    funext fun a => Fin.ext (by match a with | ⟨0, _⟩ => rfl | ⟨1, _⟩ => rfl)
  simp only [e, val_main_v86_apply, diff_at, Ideal.hostUnary_rsqrt_def, Ideal.hostDivf_def, Ideal.addf_def, Ideal.mulf_def,
    Ideal.ofBits_def, Ideal.ofBits_zero_f32, zero_add, Cert.Spec.mean256]

/-- THE REFERENCE'S FIRST RESULT is the layer's output. -/
theorem out_eq : val_main_v103 (F := Ideal) x1 x7 x8 x9 x10 x11 x13 = Cert.Whole.out x1 x7 x8 x9 x10 x11 x13 := by
  funext i
  obtain ⟨r, d, rfl⟩ : ∃ (r : Fin 16384) (d : Fin 256), i = ix2 r d := ⟨i 0, i 1, eq_ix2 i⟩
  rw [val_main_v103_apply, val_main_v100_apply, val_main_v95_apply, val_main_v94_apply, val_main_v93_apply, val_main_v99_apply,
    val_main_v102_apply, val_main_v101_apply, diff_at']
  have e1 : idx_main_v93 (idx_main_v94 (ix2 r d)) = ix1 d := funext fun a => Fin.ext (by match a with | ⟨0, _⟩ => rfl)
  have e2 : idx_main_v99 (ix2 r d) = ix2 r (0 : Fin 1) :=
    funext fun a => Fin.ext (by match a with | ⟨0, _⟩ => rfl | ⟨1, _⟩ => rfl)
  have e3 : idx_main_v101 (idx_main_v102 (ix2 r d)) = ix1 d := funext fun a => Fin.ext (by match a with | ⟨0, _⟩ => rfl)
  rw [e1, e2, e3, inv_at]
  rfl

/-- THE REFERENCE'S SECOND RESULT: the table `hidden2` with the output's rows scattered in at the node indices. -/
theorem scattered_eq (x2 : (⟨S100000x256, .f32⟩ : BufTy).Contents (Elt Ideal)) :
    val_main_v110 (F := Ideal) x1 x2 x7 x8 x9 x10 x11 x13
      = Host.scatter scatter_S100000x256_S16384x1_S16384x256_1_0_0_1 (fun _ b => b) x2 (val_main_v109 (F := Ideal) x11)
          (Cert.Whole.out x1 x7 x8 x9 x10 x11 x13) := by
  unfold val_main_v110
  rw [out_eq]

end Cert.ReferenceIdeal.RefValue

end
-- ==== Proof.lean ====
/-
  One layer of a neighbourhood-aggregating network over a table of 100000 node rows of 256 features, for a batch of
  16384 nodes with ten neighbours each: per batch row, the mean of the ten neighbour rows of `hidden1` and the node's own
  row are multiplied by the two halves of a 512 × 256 weight matrix, the bias is added, the result is rectified and
  layer-normalised over its 256 features (mean and variance as sums divided by 256, a reciprocal square root of the
  variance plus `eps`, scale and shift); the batch's output rows are then written into the table `hidden2` at the node
  indices. The programs return the output rows and the updated table.

  The kernel program gathers the rows on the host in neighbour-major order and runs one region of 32 grid points, each
  normalising 512 batch rows; the reference gathers in the given order, sums each node's ten rows by a scatter with
  addition, multiplies the concatenated row by the whole matrix, and also carries a first layer neither result reads. On
  the extended reals the two compute ONE function of the arguments (`Whole.out`, and its scatter into `hidden2`): the
  changes of float format are the identity, a sum over 512 indices is the sum over its halves, and a node's ten
  gathered rows are the same ten rows in either order. No step moves a factor across a sum, so the finiteness of the
  inputs is never used; every integer index names a table row (negative ones counted from the end, then clamped), so
  the function is total in the index inputs as well.

  Proof/Spec.lean has the row formula and the two re-indexings of sums; Proof/LibRows.lean the row gather and the row
  scatter with addition at an index; Proof/Whole.lean the function; Proof/KernelBody.lean, KernelHost.lean and
  KernelValue.lean the kernel program's results; Proof/RefValue.lean the reference's. The three frames are the generated
  ones (the reference's, its generated run with the results dropped); the idealization rewrote no operation.
-/
import proofs.«407667_j45320494908016_3_alg».proof.Defs
import proofs.«407667_j45320494908016_3_alg».proof.Proof.Gen.Kernel
import proofs.«407667_j45320494908016_3_alg».proof.Proof.Gen.Kernel.Skeleton
import proofs.«407667_j45320494908016_3_alg».proof.Proof.Gen.Kernel.Launch
import proofs.«407667_j45320494908016_3_alg».proof.Proof.Gen.Kernel.Points
import proofs.«407667_j45320494908016_3_alg».proof.Proof.Gen.Kernel.Frame
import proofs.«407667_j45320494908016_3_alg».proof.Proof.Gen.KernelIdeal
import proofs.«407667_j45320494908016_3_alg».proof.Proof.Gen.KernelIdeal.Skeleton
import proofs.«407667_j45320494908016_3_alg».proof.Proof.Gen.KernelIdeal.Launch
import proofs.«407667_j45320494908016_3_alg».proof.Proof.Gen.KernelIdeal.Points
import proofs.«407667_j45320494908016_3_alg».proof.Proof.Gen.KernelIdeal.Frame
import proofs.«407667_j45320494908016_3_alg».proof.Proof.Gen.ReferenceIdeal
import proofs.«407667_j45320494908016_3_alg».proof.Proof.Gen.ReferenceIdeal.Run
import proofs.«407667_j45320494908016_3_alg».proof.Proof.Gen.ReferenceIdeal.Read
import proofs.«407667_j45320494908016_3_alg».proof.Proof.Gen.Pre_finite_inputs
import proofs.«407667_j45320494908016_3_alg».proof.Proof.KernelValue
import proofs.«407667_j45320494908016_3_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the layer's output as their first result and the
    table with those rows scattered in as their second. -/
theorem algebraic : Cert.algebraic_KernelIdeal_ReferenceIdeal := by
  intro m ρ m' ρ' _ hagree
  refine ⟨fun c => Cert.KernelIdeal.KValue.outOf m c, fun c => Cert.KernelIdeal.KValue.scatteredOf m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨-, h1, -, -, -, -, -, h7, h8, h9, h10, h11, -, h13⟩ := hagree c
    rw [Cert.ReferenceIdeal.Read.val_main_v103_eq, Cert.ReferenceIdeal.RefValue.out_eq, h1, h7, h8, h9, h10, h11, h13]
  · obtain ⟨-, h1, h2, -, -, -, -, h7, h8, h9, h10, h11, -, h13⟩ := hagree c
    rw [Cert.ReferenceIdeal.Read.val_main_v110_eq, Cert.ReferenceIdeal.RefValue.scattered_eq, h1, h2, h7, h8, h9, h10, h11, h13]
    rfl

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
